-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S2048x64 : Shape := ⟨2, ![2048, 64]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S2048x64 : S_.BroadcastsInDim S2048x64 (![] : Fin 0 → Fin S2048x64.rank)
  reducesTo_S2048x64_S_d0_1 : S2048x64.ReducesTo [0, 1] S_

variable [Facts]

def fn {F : FTy → Type} [FloatOps F] (main_arg0 : FVec F S8x2048x2048 .f32) (main_arg1 : FVec F S2048x64 .f32) (main_arg2 : FVec F S2048x64 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S2048x64 .f32 := Host.absf main_arg2
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_c_3 : IVec S_ 1 := constantI S_ 1 1#1
  let main_v12 : IVec S_ 1 := (fun x v => Host.reduce IntOp.andi x v reducesTo_S2048x64_S_d0_1 h_S_) main_v11 main_c_3
  let main_v13 : IVec S_ 1 := andi main_v8 main_v12
  main_v13
-- ==== Kernel.lean ====
abbrev S8x2048x2048 : Shape := ⟨3, ![8, 2048, 2048]⟩
abbrev S2048x64 : Shape := ⟨2, ![2048, 64]⟩
abbrev S2048x2048 : Shape := ⟨2, ![2048, 2048]⟩
abbrev S_ : Shape := ⟨0, ![]⟩
abbrev S64x2048 : Shape := ⟨2, ![64, 2048]⟩
abbrev S256x64 : Shape := ⟨2, ![256, 64]⟩
abbrev S64x256 : Shape := ⟨2, ![64, 256]⟩
abbrev S256x256 : Shape := ⟨2, ![256, 256]⟩
abbrev S256x2048 : Shape := ⟨2, ![256, 2048]⟩
abbrev S2048x256 : Shape := ⟨2, ![2048, 256]⟩
abbrev S16384x2048 : Shape := ⟨2, ![16384, 2048]⟩
abbrev S512x2048 : Shape := ⟨2, ![512, 2048]⟩

abbrev nBuf : Space → Nat
  | .hbm => 39
  | .vmem => 71
  | .smem => 0
  | _ => 0

abbrev bufTy : (tb : Table) → Fin (tcTables nBuf tb) → BufTy
  | .hbm, ⟨0, _⟩ => ⟨S8x2048x2048, .f32⟩
  | .hbm, ⟨1, _⟩ => ⟨S2048x64, .f32⟩
  | .hbm, ⟨2, _⟩ => ⟨S2048x64, .f32⟩
  | .hbm, ⟨3, _⟩ => ⟨S2048x2048, .i32⟩
  | .hbm, ⟨4, _⟩ => ⟨S2048x2048, .i32⟩
  | .hbm, ⟨5, _⟩ => ⟨S_, .i32⟩
  | .hbm, ⟨6, _⟩ => ⟨S2048x2048, .i32⟩
  | .hbm, ⟨7, _⟩ => ⟨S2048x2048, .i32⟩
  | .hbm, ⟨8, _⟩ => ⟨S2048x2048, .i1⟩
  | .hbm, ⟨9, _⟩ => ⟨S2048x2048, .f32⟩
  | .hbm, ⟨10, _⟩ => ⟨S64x2048, .f32⟩
  | .hbm, ⟨11, _⟩ => ⟨S2048x2048, .f32⟩
  | .hbm, ⟨12, _⟩ => ⟨S64x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .bf16⟩
  | .hbm, ⟨35, _⟩ => ⟨S16384x2048, .f32⟩
  | .hbm, ⟨36, _⟩ => ⟨S16384x2048, .bf16⟩
  | .hbm, ⟨37, _⟩ => ⟨S16384x2048, .f32⟩
  | .hbm, ⟨38, _⟩ => ⟨S8x2048x2048, .f32⟩
  | .local _ .vmem, ⟨0, _⟩ => ⟨S256x64, .f32⟩
  | .local _ .vmem, ⟨1, _⟩ => ⟨S256x64, .f32⟩
  | .local _ .vmem, ⟨2, _⟩ => ⟨S64x256, .f32⟩
  | .local _ .vmem, ⟨3, _⟩ => ⟨S64x256, .f32⟩
  | .local _ .vmem, ⟨4, _⟩ => ⟨S256x256, .f32⟩
  | .local _ .vmem, ⟨5, _⟩ => ⟨S256x256, .f32⟩
  | .local _ .vmem, ⟨6, _⟩ => ⟨S256x64, .f32⟩
  | .local _ .vmem, ⟨7, _⟩ => ⟨S256x64, .f32⟩
  | .local _ .vmem, ⟨8, _⟩ => ⟨S64x256, .f32⟩
  | .local _ .vmem, ⟨9, _⟩ => ⟨S64x256, .f32⟩
  | .local _ .vmem, ⟨10, _⟩ => ⟨S256x256, .f32⟩
  | .local _ .vmem, ⟨11, _⟩ => ⟨S256x256, .f32⟩
  | .local _ .vmem, ⟨12, _⟩ => ⟨S256x2048, .f32⟩
  | .local _ .vmem, ⟨13, _⟩ => ⟨S256x2048, .f32⟩
  | .local _ .vmem, ⟨14, _⟩ => ⟨S2048x256, .f32⟩
  | .local _ .vmem, ⟨15, _⟩ => ⟨S2048x256, .f32⟩
  | .local _ .vmem, ⟨16, _⟩ => ⟨S256x256, .f32⟩
  | .local _ .vmem, ⟨17, _⟩ => ⟨S256x256, .f32⟩
  | .local _ .vmem, ⟨18, _⟩ => ⟨S256x2048, .f32⟩
  | .local _ .vmem, ⟨19, _⟩ => ⟨S256x2048, .f32⟩
  | .local _ .vmem, ⟨20, _⟩ => ⟨S2048x256, .f32⟩
  | .local _ .vmem, ⟨21, _⟩ => ⟨S2048x256, .f32⟩
  | .local _ .vmem, ⟨22, _⟩ => ⟨S256x256, .f32⟩
  | .local _ .vmem, ⟨23, _⟩ => ⟨S256x256, .f32⟩
  | .local _ .vmem, ⟨24, _⟩ => ⟨S256x2048, .f32⟩
  | .local _ .vmem, ⟨25, _⟩ => ⟨S256x2048, .f32⟩
  | .local _ .vmem, ⟨26, _⟩ => ⟨S2048x256, .f32⟩
  | .local _ .vmem, ⟨27, _⟩ => ⟨S2048x256, .f32⟩
  | .local _ .vmem, ⟨28, _⟩ => ⟨S256x256, .f32⟩
  | .local _ .vmem, ⟨29, _⟩ => ⟨S256x256, .f32⟩
  | .local _ .vmem, ⟨30, _⟩ => ⟨S256x2048, .f32⟩
  | .local _ .vmem, ⟨31, _⟩ => ⟨S256x2048, .f32⟩
  | .local _ .vmem, ⟨32, _⟩ => ⟨S2048x256, .f32⟩
  | .local _ .vmem, ⟨33, _⟩ => ⟨S2048x256, .f32⟩
  | .local _ .vmem, ⟨34, _⟩ => ⟨S256x256, .f32⟩
  | .local _ .vmem, ⟨35, _⟩ => ⟨S256x256, .f32⟩
  | .local _ .vmem, ⟨36, _⟩ => ⟨S256x2048, .f32⟩
  | .local _ .vmem, ⟨37, _⟩ => ⟨S256x2048, .f32⟩
  | .local _ .vmem, ⟨38, _⟩ => ⟨S2048x256, .f32⟩
  | .local _ .vmem, ⟨39, _⟩ => ⟨S2048x256, .f32⟩
  | .local _ .vmem, ⟨40, _⟩ => ⟨S256x256, .f32⟩
  | .local _ .vmem, ⟨41, _⟩ => ⟨S256x256, .f32⟩
  | .local _ .vmem, ⟨42, _⟩ => ⟨S256x2048, .f32⟩
  | .local _ .vmem, ⟨43, _⟩ => ⟨S256x2048, .f32⟩
  | .local _ .vmem, ⟨44, _⟩ => ⟨S2048x256, .f32⟩
  | .local _ .vmem, ⟨45, _⟩ => ⟨S2048x256, .f32⟩
  | .local _ .vmem, ⟨46, _⟩ => ⟨S256x256, .f32⟩
  | .local _ .vmem, ⟨47, _⟩ => ⟨S256x256, .f32⟩
  | .local _ .vmem, ⟨48, _⟩ => ⟨S256x2048, .f32⟩
  | .local _ .vmem, ⟨49, _⟩ => ⟨S256x2048, .f32⟩
  | .local _ .vmem, ⟨50, _⟩ => ⟨S2048x256, .f32⟩
  | .local _ .vmem, ⟨51, _⟩ => ⟨S2048x256, .f32⟩
  | .local _ .vmem, ⟨52, _⟩ => ⟨S256x256, .f32⟩
  | .local _ .vmem, ⟨53, _⟩ => ⟨S256x256, .f32⟩
  | .local _ .vmem, ⟨54, _⟩ => ⟨S256x2048, .f32⟩
  | .local _ .vmem, ⟨55, _⟩ => ⟨S256x2048, .f32⟩
  | .local _ .vmem, ⟨56, _⟩ => ⟨S2048x256, .f32⟩
  | .local _ .vmem, ⟨57, _⟩ => ⟨S2048x256, .f32⟩
  | .local _ .vmem, ⟨58, _⟩ => ⟨S256x256, .f32⟩
  | .local _ .vmem, ⟨59, _⟩ => ⟨S256x256, .f32⟩
  | .local _ .vmem, ⟨60, _⟩ => ⟨S256x2048, .f32⟩
  | .local _ .vmem, ⟨61, _⟩ => ⟨S256x2048, .f32⟩
  | .local _ .vmem, ⟨62, _⟩ => ⟨S2048x256, .f32⟩
  | .local _ .vmem, ⟨63, _⟩ => ⟨S2048x256, .f32⟩
  | .local _ .vmem, ⟨64, _⟩ => ⟨S256x256, .f32⟩
  | .local _ .vmem, ⟨65, _⟩ => ⟨S256x256, .f32⟩
  | .local _ .vmem, ⟨66, _⟩ => ⟨S512x2048, .bf16⟩
  | .local _ .vmem, ⟨67, _⟩ => ⟨S512x2048, .bf16⟩
  | .local _ .vmem, ⟨68, _⟩ => ⟨S2048x2048, .bf16⟩
  | .local _ .vmem, ⟨69, _⟩ => ⟨S512x2048, .f32⟩
  | .local _ .vmem, ⟨70, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg1_1 : Ref sig .tc := ⟨.vmem, 51, rfl⟩
abbrev cc8_stg2_0 : Ref sig .tc := ⟨.vmem, 52, rfl⟩
abbrev cc8_stg2_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg1_1 : Ref sig .tc := ⟨.vmem, 57, rfl⟩
abbrev cc9_stg2_0 : Ref sig .tc := ⟨.vmem, 58, rfl⟩
abbrev cc9_stg2_1 : Ref sig .tc := ⟨.vmem, 59, rfl⟩
abbrev cc10_stg0_0 : Ref sig .tc := ⟨.vmem, 60, rfl⟩
abbrev cc10_stg0_1 : Ref sig .tc := ⟨.vmem, 61, rfl⟩
abbrev cc10_stg1_0 : Ref sig .tc := ⟨.vmem, 62, rfl⟩
abbrev cc10_stg1_1 : Ref sig .tc := ⟨.vmem, 63, rfl⟩
abbrev cc10_stg2_0 : Ref sig .tc := ⟨.vmem, 64, rfl⟩
abbrev cc10_stg2_1 : Ref sig .tc := ⟨.vmem, 65, rfl⟩
abbrev cc11_stg0_0 : Ref sig .tc := ⟨.vmem, 66, rfl⟩
abbrev cc11_stg0_1 : Ref sig .tc := ⟨.vmem, 67, rfl⟩
abbrev cc11_stg1_0 : Ref sig .tc := ⟨.vmem, 68, rfl⟩
abbrev cc11_stg2_0 : Ref sig .tc := ⟨.vmem, 69, rfl⟩
abbrev cc11_stg2_1 : Ref sig .tc := ⟨.vmem, 70, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47
abbrev cc8_sem0_0 : DmaSem sig := 48
abbrev cc8_sem0_1 : DmaSem sig := 49
abbrev cc8_sem1_0 : DmaSem sig := 50
abbrev cc8_sem1_1 : DmaSem sig := 51
abbrev cc8_sem2_0 : DmaSem sig := 52
abbrev cc8_sem2_1 : DmaSem sig := 53
abbrev cc9_sem0_0 : DmaSem sig := 54
abbrev cc9_sem0_1 : DmaSem sig := 55
abbrev cc9_sem1_0 : DmaSem sig := 56
abbrev cc9_sem1_1 : DmaSem sig := 57
abbrev cc9_sem2_0 : DmaSem sig := 58
abbrev cc9_sem2_1 : DmaSem sig := 59
abbrev cc10_sem0_0 : DmaSem sig := 60
abbrev cc10_sem0_1 : DmaSem sig := 61
abbrev cc10_sem1_0 : DmaSem sig := 62
abbrev cc10_sem1_1 : DmaSem sig := 63
abbrev cc10_sem2_0 : DmaSem sig := 64
abbrev cc10_sem2_1 : DmaSem sig := 65
abbrev cc11_sem0_0 : DmaSem sig := 66
abbrev cc11_sem0_1 : DmaSem sig := 67
abbrev cc11_sem1_0 : DmaSem sig := 68
abbrev cc11_sem2_0 : DmaSem sig := 69
abbrev cc11_sem2_1 : DmaSem sig := 70

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S64x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S256x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![8, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S256x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![8, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S256x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2048x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S256x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![8, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S256x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S2048x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S256x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![8, 8], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S256x2048 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S2048x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S256x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![8, 8], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S256x2048 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S2048x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S256x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![8, 8], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S256x2048 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S2048x256 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S256x256 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨2, ![8, 8], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 2 → Memref sig .tc .vmem S256x2048 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false]

abbrev stage9_1 : Fin 2 → Memref sig .tc .vmem S2048x256 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S256x256 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev grid10 : Pipeline.Grid := ⟨2, ![8, 8], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 2 → Memref sig .tc .vmem S256x2048 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 2 → Memref sig .tc .vmem S2048x256 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S256x256 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev grid11 : Pipeline.Grid := ⟨1, ![32], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S512x2048 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S2048x2048 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S512x2048 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

class Facts₀ : Prop where
  bcast_S_S2048x2048 : S_.BroadcastsInDim S2048x2048 (![] : Fin 0 → Fin S2048x2048.rank)
  transposes_S2048x64_S64x2048_1_0 : S2048x64.Transposes [1, 0] S64x2048
  inb_S256x64_S256x64_0_0 : ∀ a, (![0, 0] : Fin 2 → Nat) a + S256x64.size a ≤ S256x64.size a
  h_S256x64 : 0 < S256x64.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256x256_S256x256_0_0 : ∀ a, (![0, 0] : Fin 2 → Nat) a + S256x256.size a ≤ S256x256.size a
  h_S256x256 : 0 < S256x256.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  transposes_S2048x2048_S2048x2048_1_0 : S2048x2048.Transposes [1, 0] S2048x2048
  bitsLt_bf16_f32 : FTy.bits .bf16 < FTy.bits .f32
  shapeCasts_S8x2048x2048_S16384x2048 : S8x2048x2048.ShapeCasts S16384x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S16384x2048_S8x2048x2048 : S16384x2048.ShapeCasts S8x2048x2048
  dot_S256x64_S64x256_S256x256_1_0_0_1_n_n_wf : DotDims.WF S256x64 S64x256 S256x256 [1] [0] [0] [1] [] []
  dot_S256x2048_S2048x256_S256x256_1_0_0_1_n_n_wf : DotDims.WF S256x2048 S2048x256 S256x256 [1] [0] [0] [1] [] []
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S2048x64.size a
  hwx0_0 : ∀ i : grid0.Coords, EltTy.bits .f32 = 32 ∨ (Rect.block (s := S2048x64) S256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x2048.size a
  hwx0_1 : ∀ i : grid0.Coords, EltTy.bits .f32 = 32 ∨ (Rect.block (s := S64x2048) S64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S2048x2048.size a
  hwx0_2 : ∀ i : grid0.Coords, EltTy.bits .f32 = 32 ∨ (Rect.block (s := S2048x2048) S256x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x64.size a ≤ S2048x64.size a
  hwx1_0 : ∀ i : grid1.Coords, EltTy.bits .f32 = 32 ∨ (Rect.block (s := S2048x64) S256x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x256.size a ≤ S64x2048.size a
  hwx1_1 : ∀ i : grid1.Coords, EltTy.bits .f32 = 32 ∨ (Rect.block (s := S64x2048) S64x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S2048x2048.size a
  hwx1_2 : ∀ i : grid1.Coords, EltTy.bits .f32 = 32 ∨ (Rect.block (s := S2048x2048) S256x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S2048x2048.size a
  hwx2_0 : ∀ i : grid2.Coords, EltTy.bits .f32 = 32 ∨ (Rect.block (s := S2048x2048) S256x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S2048x2048.size a
  hwx2_1 : ∀ i : grid2.Coords, EltTy.bits .f32 = 32 ∨ (Rect.block (s := S2048x2048) S2048x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S2048x2048.size a
  hwx2_2 : ∀ i : grid2.Coords, EltTy.bits .f32 = 32 ∨ (Rect.block (s := S2048x2048) S256x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x2048.size a ≤ S2048x2048.size a
  hwx3_0 : ∀ i : grid3.Coords, EltTy.bits .f32 = 32 ∨ (Rect.block (s := S2048x2048) S256x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S2048x2048.size a
  hwx3_1 : ∀ i : grid3.Coords, EltTy.bits .f32 = 32 ∨ (Rect.block (s := S2048x2048) S2048x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S2048x2048.size a
  hwx3_2 : ∀ i : grid3.Coords, EltTy.bits .f32 = 32 ∨ (Rect.block (s := S2048x2048) S256x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x2048.size a ≤ S2048x2048.size a
  hwx4_0 : ∀ i : grid4.Coords, EltTy.bits .f32 = 32 ∨ (Rect.block (s := S2048x2048) S256x2048.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x256.size a ≤ S2048x2048.size a
  hwx4_1 : ∀ i : grid4.Coords, EltTy.bits .f32 = 32 ∨ (Rect.block (s := S2048x2048) S2048x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S2048x2048.size a
  hwx4_2 : ∀ i : grid4.Coords, EltTy.bits .f32 = 32 ∨ (Rect.block (s := S2048x2048) S256x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x2048.size a ≤ S2048x2048.size a
  hwx5_0 : ∀ i : grid5.Coords, EltTy.bits .f32 = 32 ∨ (Rect.block (s := S2048x2048) S256x2048.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x256.size a ≤ S2048x2048.size a
  hwx5_1 : ∀ i : grid5.Coords, EltTy.bits .f32 = 32 ∨ (Rect.block (s := S2048x2048) S2048x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S2048x2048.size a
  hwx5_2 : ∀ i : grid5.Coords, EltTy.bits .f32 = 32 ∨ (Rect.block (s := S2048x2048) S256x256.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S256x2048.size a ≤ S2048x2048.size a
  hwx6_0 : ∀ i : grid6.Coords, EltTy.bits .f32 = 32 ∨ (Rect.block (s := S2048x2048) S256x2048.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2048x256.size a ≤ S2048x2048.size a
  hwx6_1 : ∀ i : grid6.Coords, EltTy.bits .f32 = 32 ∨ (Rect.block (s := S2048x2048) S2048x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S256x256.size a ≤ S2048x2048.size a
  hwx6_2 : ∀ i : grid6.Coords, EltTy.bits .f32 = 32 ∨ (Rect.block (s := S2048x2048) S256x256.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S256x2048.size a ≤ S2048x2048.size a
  hwx7_0 : ∀ i : grid7.Coords, EltTy.bits .f32 = 32 ∨ (Rect.block (s := S2048x2048) S256x2048.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2048x256.size a ≤ S2048x2048.size a
  hwx7_1 : ∀ i : grid7.Coords, EltTy.bits .f32 = 32 ∨ (Rect.block (s := S2048x2048) S2048x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S256x256.size a ≤ S2048x2048.size a
  hwx7_2 : ∀ i : grid7.Coords, EltTy.bits .f32 = 32 ∨ (Rect.block (s := S2048x2048) S256x256.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S256x2048.size a ≤ S2048x2048.size a
  hwx8_0 : ∀ i : grid8.Coords, EltTy.bits .f32 = 32 ∨ (Rect.block (s := S2048x2048) S256x2048.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2048x256.size a ≤ S2048x2048.size a
  hwx8_1 : ∀ i : grid8.Coords, EltTy.bits .f32 = 32 ∨ (Rect.block (s := S2048x2048) S2048x256.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S256x256.size a ≤ S2048x2048.size a
  hwx8_2 : ∀ i : grid8.Coords, EltTy.bits .f32 = 32 ∨ (Rect.block (s := S2048x2048) S256x256.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S256x2048.size a ≤ S2048x2048.size a
  hwx9_0 : ∀ i : grid9.Coords, EltTy.bits .f32 = 32 ∨ (Rect.block (s := S2048x2048) S256x2048.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2048x256.size a ≤ S2048x2048.size a
  hwx9_1 : ∀ i : grid9.Coords, EltTy.bits .f32 = 32 ∨ (Rect.block (s := S2048x2048) S2048x256.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S256x256.size a ≤ S2048x2048.size a
  hwx9_2 : ∀ i : grid9.Coords, EltTy.bits .f32 = 32 ∨ (Rect.block (s := S2048x2048) S256x256.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S256x2048.size a ≤ S2048x2048.size a
  hwx10_0 : ∀ i : grid10.Coords, EltTy.bits .f32 = 32 ∨ (Rect.block (s := S2048x2048) S256x2048.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2048x256.size a ≤ S2048x2048.size a
  hwx10_1 : ∀ i : grid10.Coords, EltTy.bits .f32 = 32 ∨ (Rect.block (s := S2048x2048) S2048x256.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S256x256.size a ≤ S2048x2048.size a
  hwx10_2 : ∀ i : grid10.Coords, EltTy.bits .f32 = 32 ∨ (Rect.block (s := S2048x2048) S256x256.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S512x2048.size a ≤ S16384x2048.size a
  hwx11_0 : ∀ i : grid11.Coords, EltTy.bits .bf16 = 32 ∨ (Rect.block (s := S16384x2048) S512x2048.size (cc11_transform_0 i) (hinb11_0 i)).WholeWords (EltTy.packing .bf16)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S2048x2048.size a ≤ S2048x2048.size a
  hwx11_1 : ∀ i : grid11.Coords, EltTy.bits .bf16 = 32 ∨ (Rect.block (s := S2048x2048) S2048x2048.size (cc11_transform_1 i) (hinb11_1 i)).WholeWords (EltTy.packing .bf16)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S512x2048.size a ≤ S16384x2048.size a
  hwx11_2 : ∀ i : grid11.Coords, EltTy.bits .f32 = 32 ∨ (Rect.block (s := S16384x2048) S512x2048.size (cc11_transform_2 i) (hinb11_2 i)).WholeWords (EltTy.packing .f32)

variable [Facts₀]

def dot_S256x64_S64x256_S256x256_1_0_0_1_n_n : DotDims S256x64 S64x256 S256x256 where
  lhsContracting := [1]
  rhsContracting := [0]
  lhsNonContracting := [0]
  rhsNonContracting := [1]
  lhsBatch := []
  rhsBatch := []
  wf := dot_S256x64_S64x256_S256x256_1_0_0_1_n_n_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg1) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S64x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S256x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v11) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S256x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v5) S256x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S2048x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S256x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v11) S256x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v16) S2048x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v17) S256x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v16) S256x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v18) S2048x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v19) S256x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v11) S256x2048.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v19) S2048x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v20) S256x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v19) S256x2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v21) S2048x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v22) S256x256.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v11) S256x2048.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v22) S2048x256.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v23) S256x256.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v22) S256x2048.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v24) S2048x256.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v25) S256x256.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v26) S256x2048.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v25) S2048x256.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v27) S256x256.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v31) S512x2048.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v29) S2048x2048.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v32) S512x2048.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

class Facts : Prop extends Facts₀ where

variable [Facts]
-- ==== ReferenceIdeal.lean ====
abbrev S8x2048x2048 : Shape := ⟨3, ![8, 2048, 2048]⟩
abbrev S2048x64 : Shape := ⟨2, ![2048, 64]⟩
abbrev S64x2048 : Shape := ⟨2, ![64, 2048]⟩
abbrev S2048x2048 : Shape := ⟨2, ![2048, 2048]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x64, .f32⟩
  | .hbm, ⟨2, _⟩ => ⟨S2048x64, .f32⟩
  | .hbm, ⟨3, _⟩ => ⟨S64x2048, .f32⟩
  | .hbm, ⟨4, _⟩ => ⟨S2048x2048, .f32⟩
  | .hbm, ⟨5, _⟩ => ⟨S64x2048, .f32⟩
  | .hbm, ⟨6, _⟩ => ⟨S2048x2048, .f32⟩
  | .hbm, ⟨7, _⟩ => ⟨S2048x2048, .f32⟩
  | .hbm, ⟨8, _⟩ => ⟨S2048x2048, .i32⟩
  | .hbm, ⟨9, _⟩ => ⟨S2048x2048, .i32⟩
  | .hbm, ⟨10, _⟩ => ⟨S_, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]

class Facts₀ : Prop where
  transposes_S2048x64_S64x2048_1_0 : S2048x64.Transposes [1, 0] S64x2048
  bcast_S_S2048x2048 : S_.BroadcastsInDim S2048x2048 (![] : Fin 0 → Fin S2048x2048.rank)
  dot_S2048x64_S64x2048_S2048x2048_1_0_0_1_n_n_wf : DotDims.WF S2048x64 S64x2048 S2048x2048 [1] [0] [0] [1] [] []
  dot_S2048x2048_S2048x2048_S2048x2048_1_0_0_1_n_n_wf : DotDims.WF S2048x2048 S2048x2048 S2048x2048 [1] [0] [0] [1] [] []
  dot_S8x2048x2048_S2048x2048_S8x2048x2048_2_1_01_0_n_n_wf : DotDims.WF S8x2048x2048 S2048x2048 S8x2048x2048 [2] [1] [0, 1] [0] [] []

variable [Facts₀]

def dot_S2048x64_S64x2048_S2048x2048_1_0_0_1_n_n : DotDims S2048x64 S64x2048 S2048x2048 where
  lhsContracting := [1]
  rhsContracting := [0]
  lhsNonContracting := [0]
  rhsNonContracting := [1]
  lhsBatch := []
  rhsBatch := []
  wf := dot_S2048x64_S64x2048_S2048x2048_1_0_0_1_n_n_wf
def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def dot_S8x2048x2048_S2048x2048_S8x2048x2048_2_1_01_0_n_n : DotDims S8x2048x2048 S2048x2048 S8x2048x2048 where
  lhsContracting := [2]
  rhsContracting := [1]
  lhsNonContracting := [0, 1]
  rhsNonContracting := [0]
  lhsBatch := []
  rhsBatch := []
  wf := dot_S8x2048x2048_S2048x2048_S8x2048x2048_2_1_01_0_n_n_wf

class Facts : Prop extends Facts₀ where

variable [Facts]
-- ==== Proof.LibPlainDot.lean ====
/-
  A product of an [M, K] array with a [K, N] array that contracts the left operand's axis 1 against the right
  operand's axis 0 (no batch axis), read at the entry (p, q): the sum over k of left (p, k) times right (k, q).
  Stated once for every dimension record of that kind, so that the kernel's matrix unit into a zero accumulator
  and the host's dot product are both read by instantiating it. With it, the transpose of an [a, b] array read at
  (p, q): the array at (q, p).
-/
import Idealize.ShloMosaic.Lib.ValueIdx
import Idealize.ShloMosaic.Lib.Pipeline.Value
import Idealize.ShloMosaic.PureOps.Ideal.Laws

noncomputable section

open scoped BigOperators

namespace Idealize.ShloMosaic.PlainDot

open Idealize.ShloMosaic Idealize.ShloMosaic.ValueIdx

variable {M K N : Nat} (D : DotDims ⟨2, ![M, K]⟩ ⟨2, ![K, N]⟩ ⟨2, ![M, N]⟩)

/-- The dimension numbers of a plain matrix product: rows of the left operand against columns of the right one. -/
structure IsPlain : Prop where
  lc : D.lhsContracting = [1]
  rc : D.rhsContracting = [0]
  ln : D.lhsNonContracting = [0]
  rn : D.rhsNonContracting = [1]
  lb : D.lhsBatch = []
  rb : D.rhsBatch = []

variable {D}

/-- The contraction runs over one axis … -/
theorem contr_rank (h : IsPlain D) : D.contr.rank = 1 := by
  rw [D.rank_contr, h.lc]; rfl

/-- … whose extent is the shared dimension K. -/
theorem contr_size (h : IsPlain D) : D.contr.size ⟨0, by have := contr_rank h; omega⟩ = K := by
  have h0 : 0 < D.lhsContracting.length := by rw [h.lc]; exact Nat.one_pos
  rw [D.size_contr 0 h0]
  simp [h.lc]

/-- The left operand's row is the result's row. -/
theorem lhs_row (h : IsPlain D) (j : (⟨2, ![M, N]⟩ : Shape).Idx) (q : D.contr.Idx) :
    (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb e => by subst e; rfl
  exact key _ _ _ _ (by simp [h.lb, h.ln])

/-- The left operand's column is the contraction coordinate. -/
theorem lhs_col (h : IsPlain D) (j : (⟨2, ![M, N]⟩ : Shape).Idx) (q : D.contr.Idx) :
    (D.lhsIdx j q 1).val = (q ⟨0, by have := contr_rank h; omega⟩).val :=
  D.lhsIdx_val_of_single h.lc j q

/-- The right operand's row is the contraction coordinate. -/
theorem rhs_row (h : IsPlain D) (j : (⟨2, ![M, N]⟩ : Shape).Idx) (q : D.contr.Idx) :
    (D.rhsIdx j q 0).val = (q ⟨0, by have := contr_rank h; omega⟩).val :=
  D.rhsIdx_val_of_single h.rc j q

/-- The right operand's column is the result's column. -/
theorem rhs_col (h : IsPlain D) (j : (⟨2, ![M, N]⟩ : Shape).Idx) (q : D.contr.Idx) :
    (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb e => by subst e; rfl
  exact key _ _ _ _ (by simp [h.lb, h.ln, h.rn])

/-- The contraction's sum, re-indexed by the shared coordinate k. -/
theorem sum_contr {α : Type*} [AddCommMonoid α] [Mul α] (h : IsPlain D)
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  rw [← Equiv.sum_comp (contrEquiv1 D K (contr_rank h) (contr_size h)).symm]
  refine Finset.sum_congr rfl fun k _ => ?_
  have hk := contrEquiv1_symm_val D K (contr_rank h) (contr_size h) k
  have el : D.lhsIdx (ix2 p q) ((contrEquiv1 D K (contr_rank h) (contr_size h)).symm k) = ix2 p k :=
    funext fun a => Fin.ext (by
      match a with
      | ⟨0, _⟩ => exact lhs_row h _ _
      | ⟨1, _⟩ => exact (lhs_col h _ _).trans hk)
  have er : D.rhsIdx (ix2 p q) ((contrEquiv1 D K (contr_rank h) (contr_size h)).symm k) = ix2 k q :=
    funext fun a => Fin.ext (by
      match a with
      | ⟨0, _⟩ => exact (rhs_row h _ _).trans hk
      | ⟨1, _⟩ => exact rhs_col h _ _)
  rw [el, er]

/-- The matrix unit into the zero accumulator, on the extended reals, at (p, q). -/
theorem matmul_zero_apply {φ₁ φ₂ : FTy} (h : IsPlain D) (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q) = ∑ k : Fin K, l (ix2 p k) * r (ix2 k q) :=
  (Ideal.matmul_constant_zero_apply D prec l r (ix2 p q)).trans (sum_contr h l r p q)

/-- The host's dot product, on the extended reals, at (p, q). -/
theorem dotGeneral_apply {φ₁ φ₂ : FTy} (h : IsPlain D) (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) :=
  (Ideal.dotGeneral_apply D prec sched l r (ix2 p q)).trans (sum_contr h l r p q)

/-- The transpose of an [a, b] array at (p, q) is the array at (q, p). -/
theorem transpose_apply2 {α : Type} {a b : Nat} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h (ix2 p q) (ix2 q p) (fun c => match c with
    | ⟨0, _⟩ => rfl
    | ⟨1, _⟩ => rfl)

end Idealize.ShloMosaic.PlainDot

end
-- ==== Proof.LibMatProduct.lean ====
/-
  The matrix product on the extended reals, as one function of its two operands: entry (p, q) of the product of
  an [M, K] array with a [K, N] array is the sum over k of left (p, k) times right (k, q). A sum over a finite
  index set in a commutative monoid has no order, so the same function describes a matrix unit that accumulates
  into zero and a host dot product, and the product read through a tile: the tile at block row bp and block
  column bq of the product is the product of the row band bp of the left operand with the column band bq of the
  right operand, because every entry's sum runs over the whole shared axis.
-/
import proofs.«137536_j69630009803034_1_alg».proof.Proof.LibPlainDot

noncomputable section

open scoped BigOperators

namespace Cert.MatProduct

open Idealize.ShloMosaic Idealize.ShloMosaic.ValueIdx Idealize.ShloMosaic.PlainDot

/-- The product of an [M, K] array with a [K, N] array, entry by entry. -/
def mm {M K N : Nat} (l : (⟨2, ![M, K]⟩ : Shape).Idx → EReal) (r : (⟨2, ![K, N]⟩ : Shape).Idx → EReal) :
    (⟨2, ![M, N]⟩ : Shape).Idx → EReal :=
  fun i => ∑ k : Fin K, l (ix2 (i 0) k) * r (ix2 k (i 1))

theorem mm_apply {M K N : Nat} (l : (⟨2, ![M, K]⟩ : Shape).Idx → EReal) (r : (⟨2, ![K, N]⟩ : Shape).Idx → EReal)
    (p : Fin M) (q : Fin N) : mm l r (ix2 p q) = ∑ k : Fin K, l (ix2 p k) * r (ix2 k q) := rfl

/-- The matrix unit into a zero accumulator computes the product. -/
theorem matmul_zero_eq_mm {M K N : Nat} {D : DotDims ⟨2, ![M, K]⟩ ⟨2, ![K, N]⟩ ⟨2, ![M, N]⟩} {φ₁ φ₂ : FTy} (h : IsPlain D)
    (prec : Option ContractPrecision) (l : FVec Ideal ⟨2, ![M, K]⟩ φ₁) (r : FVec Ideal ⟨2, ![K, N]⟩ φ₂) :
    FloatOps.matmul D prec l r (constant ⟨2, ![M, N]⟩ .f32 0x00000000#32) = mm l r := by
  funext i
  rw [eq_ix2 i]
  exact matmul_zero_apply h prec l r (i 0) (i 1)

/-- The host's dot product of two matrices computes the product. -/
theorem dotGeneral_eq_mm {M K N : Nat} {D : DotDims ⟨2, ![M, K]⟩ ⟨2, ![K, N]⟩ ⟨2, ![M, N]⟩} {φ₁ φ₂ : FTy} (h : IsPlain D)
    (prec : Option ContractPrecision) (sched : HostSchedule) (l : FVec Ideal ⟨2, ![M, K]⟩ φ₁) (r : FVec Ideal ⟨2, ![K, N]⟩ φ₂) :
    FloatOps.dotGeneral D prec sched l r = mm l r := by
  funext i
  rw [eq_ix2 i]
  exact dotGeneral_apply h prec sched l r (i 0) (i 1)

/-- A tile of the product is the product of a row band with a column band: if the band `lb` holds the rows of `l`
    that the tile's rows name (`rowOf`) and the band `rb` the columns of `r` that its columns name (`colOf`), the
    tile's entry (y0, y1) is the product's entry (rowOf y0, colOf y1). -/
theorem mm_tile {M K N m n : Nat} (l : (⟨2, ![M, K]⟩ : Shape).Idx → EReal) (r : (⟨2, ![K, N]⟩ : Shape).Idx → EReal)
    (lb : (⟨2, ![m, K]⟩ : Shape).Idx → EReal) (rb : (⟨2, ![K, n]⟩ : Shape).Idx → EReal)
    (rowOf : Fin m → Fin M) (colOf : Fin n → Fin N)
    (hl : ∀ (y : Fin m) (k : Fin K), lb (ix2 y k) = l (ix2 (rowOf y) k))
    (hr : ∀ (k : Fin K) (y : Fin n), rb (ix2 k y) = r (ix2 k (colOf y)))
    (y0 : Fin m) (y1 : Fin n) : mm lb rb (ix2 y0 y1) = mm l r (ix2 (rowOf y0) (colOf y1)) := by
  rw [mm_apply, mm_apply]
  exact Finset.sum_congr rfl fun k _ => by rw [hl, hr]

end Cert.MatProduct

end
-- ==== Proof.Region0.lean ====
/-
  A launch that multiplies a [2048, 64] array by a [64, 2048] array, tile by tile on an 8 × 8 grid. Point (i, j)
  reads the row band i of the left array (256 rows, all 64 columns) and the column band j of the right array
  (all 64 rows, 256 columns), multiplies them on the matrix unit into a zero accumulator and writes the
  [256, 256] tile (i, j) of the result. Every entry's sum runs over the whole shared axis inside one point, so
  the tile a point writes is the tile of the whole product, the 64 tiles cover the result, and the result array
  ends holding the product of the two arrays as the launch found them.
-/
import proofs.«137536_j69630009803034_1_alg».proof.Proof.Gen.KernelIdeal.Frame
import proofs.«137536_j69630009803034_1_alg».proof.Proof.LibMatProduct
import Idealize.ShloMosaic.Lib.Pipeline.Value

set_option maxRecDepth 16384

noncomputable section

namespace Cert.KernelIdeal.Region0

open Idealize.ShloMosaic Idealize.ShloMosaic.TcCoe Idealize.ShloMosaic.ValueIdx Idealize.ShloMosaic.PlainDot
open Idealize.SL.Sem
open Cert.KernelIdeal Cert.KernelIdeal.Gen Cert.MatProduct

variable (V : (c : Dev nD) → (b : Ref sig .tc) → Buf (Elt Ideal) ((c : Thread nD τ).loc b))

/-- The left array as the launch finds it. -/
abbrev lhs (c : Dev nD) : Vec Ideal S2048x64 .f32 := V c main_arg1
/-- The right array as the launch finds it. -/
abbrev rhs (c : Dev nD) : Vec Ideal S64x2048 .f32 := V c main_v6

theorem zeros : (![0, 0] : Fin 2 → Nat) = fun _ => 0 := funext fun a => by fin_cases a <;> rfl

theorem plain : IsPlain (dot_S256x64_S64x256_S256x256_1_0_0_1_n_n) := ⟨rfl, rfl, rfl, rfl, rfl, rfl⟩

/-- The body's payload is the product of its two loaded bands. -/
theorem payload_eq (x0 : Vec Ideal S256x64 .f32) (x1 : Vec Ideal S64x256 .f32) : k0_pay1 x0 x1 = mm x0 x1 := by
  unfold k0_pay1
  simp only [shapeCast_self]
  exact matmul_zero_eq_mm plain _ x0 x1

/-- The index maps over the grid: the left window moves with the tile's row and stays at column block 0, the right
    window stays at row block 0 and moves with the tile's column, and a tile's block indices are below 8. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 7 ∧ win0_2.index t (1 : Fin 2) ≤ 7 :=
  (by decide +kernel : ∀ t : Fin grid0.N, _)

/-- Every tile is some point's. -/
theorem index_onto : ∀ (q0 : Fin 8) (q1 : Fin 8), ∃ t : Fin cfg0.N, win0_2.index t = ![q0.val, q1.val] :=
  (by decide +kernel : ∀ (q0 : Fin 8) (q1 : Fin 8), ∃ t : Fin grid0.N, win0_2.index t = ![q0.val, q1.val])

/-- What point `t` writes back is tile `t` of the product of the two arrays. -/
theorem flushed_eq (c : Dev nD) (t : Fin cfg0.N) :
    (dat0 V c).flushed 2 t = ((cfg0.win 2).blk t).view.read (Elt Ideal) (mm (lhs V c) (rhs V c)) := by
  show (cfg0.win 2).cut (grid0.coords t) ((dat0 V c).after 2 t) = _
  rw [after0_2]
  unfold out0_2
  rw [View.canon_unit_zero zeros]
  simp only [View.ld_unit_zero (S := S256x64) zeros, View.ld_unit_zero (S := S64x256) zeros]
  rw [payload_eq]
  obtain ⟨e0, e1, e2, e3, e4, e5⟩ := index_facts t
  funext j
  obtain ⟨p, q, rfl⟩ : ∃ (p : Fin 256) (q : Fin 256), j = ix2 p q := ⟨j 0, j 1, eq_ix2 j⟩
  show mm (iblk0 V c 0 t) (iblk0 V c 1 t) (ix2 p q) = mm (lhs V c) (rhs V c) (((cfg0.win 2).blk t).view.emb (ix2 p q))
  refine (mm_tile (lhs V c) (rhs V c) (iblk0 V c 0 t) (iblk0 V c 1 t)
    (fun y => ⟨win0_2.index t (0 : Fin 2) * 256 + y.val, by have := y.isLt; omega⟩)
    (fun y => ⟨win0_2.index t (1 : Fin 2) * 256 + y.val, by have := y.isLt; omega⟩) ?_ ?_ p q).trans ?_
  · intro y k
    show V c main_arg1 (((cfg0.win 0).blk t).view.emb (ix2 y k)) = V c main_arg1 (ix2 _ k)
    refine congrArg _ (funext fun a => Fin.ext ?_)
    match a with
    | ⟨0, _⟩ => show win0_0.index t (0 : Fin 2) * 256 + 1 * y.val = win0_2.index t (0 : Fin 2) * 256 + y.val; omega
    | ⟨1, _⟩ => show win0_0.index t (1 : Fin 2) * 64 + 1 * k.val = k.val; omega
  · intro k y
    show V c main_v6 (((cfg0.win 1).blk t).view.emb (ix2 k y)) = V c main_v6 (ix2 k _)
    refine congrArg _ (funext fun a => Fin.ext ?_)
    match a with
    | ⟨0, _⟩ => show win0_1.index t (0 : Fin 2) * 64 + 1 * k.val = k.val; omega
    | ⟨1, _⟩ => show win0_1.index t (1 : Fin 2) * 256 + 1 * y.val = win0_2.index t (1 : Fin 2) * 256 + y.val; omega
  · refine congrArg _ (funext fun a => Fin.ext ?_)
    match a with
    | ⟨0, _⟩ => show win0_2.index t (0 : Fin 2) * 256 + p.val = win0_2.index t (0 : Fin 2) * 256 + 1 * p.val; omega
    | ⟨1, _⟩ => show win0_2.index t (1 : Fin 2) * 256 + q.val = win0_2.index t (1 : Fin 2) * 256 + 1 * q.val; omega

/-- An index of the result is in point `t`'s tile iff each coordinate is in the tile's range on its axis. -/
theorem mem_tile (t : Fin cfg0.N) (i : S2048x2048.Idx) :
    i ∈ ((cfg0.win 2).blk t).view.set ↔ ∀ a : Fin 2, win0_2.index t a * S256x256.size a ≤ (i a).val ∧ (i a).val < win0_2.index t a * S256x256.size a + S256x256.size a := by
  show i ∈ ((View.whole main_v7).slice (win0_2.rect t)).set ↔ _
  rw [View.set_slice_whole, Rect.mem_set_unit]
  exact Iff.rfl

/-- The 64 tiles cover the result. -/
theorem covered (i : S2048x2048.Idx) : ∃ t : Fin cfg0.N, (cfg0.win 2).flush t = true ∧ i ∈ ((cfg0.win 2).blk t).view.set := by
  have hi0 : (i 0).val < 2048 := (i 0).isLt
  have hi1 : (i 1).val < 2048 := (i 1).isLt
  obtain ⟨t, ht⟩ := index_onto ⟨(i 0).val / 256, by omega⟩ ⟨(i 1).val / 256, by omega⟩
  have q0 : win0_2.index t (0 : Fin 2) = (i 0).val / 256 := congrFun ht 0
  have q1 : win0_2.index t (1 : Fin 2) = (i 1).val / 256 := congrFun ht 1
  refine ⟨t, flush0_2 t, ?_⟩
  rw [mem_tile]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 256 ≤ (i 1).val ∧ (i 1).val < win0_2.index t (1 : Fin 2) * 256 + 256; omega

/-- The result array after the launch is the product of the two arrays as the launch found them. -/
theorem result (c : Dev nD) : (dat0 V c).arrAt 2 cfg0.N = mm (lhs V c) (rhs V c) :=
  (dat0 V c).arrAt_eq_of_cover 2 (mm (lhs V c) (rhs V c)) (fun t _ => flushed_eq V c t) covered

end Cert.KernelIdeal.Region0

end
-- ==== Proof.Region1.lean ====
/-
  A launch that multiplies a [2048, 64] array by a [64, 2048] array, tile by tile on an 8 × 8 grid. Point (i, j)
  reads the row band i of the left array (256 rows, all 64 columns) and the column band j of the right array
  (all 64 rows, 256 columns), multiplies them on the matrix unit into a zero accumulator and writes the
  [256, 256] tile (i, j) of the result. Every entry's sum runs over the whole shared axis inside one point, so
  the tile a point writes is the tile of the whole product, the 64 tiles cover the result, and the result array
  ends holding the product of the two arrays as the launch found them.
-/
import proofs.«137536_j69630009803034_1_alg».proof.Proof.Gen.KernelIdeal.Frame
import proofs.«137536_j69630009803034_1_alg».proof.Proof.LibMatProduct
import Idealize.ShloMosaic.Lib.Pipeline.Value

set_option maxRecDepth 16384

noncomputable section

namespace Cert.KernelIdeal.Region1

open Idealize.ShloMosaic Idealize.ShloMosaic.TcCoe Idealize.ShloMosaic.ValueIdx Idealize.ShloMosaic.PlainDot
open Idealize.SL.Sem
open Cert.KernelIdeal Cert.KernelIdeal.Gen Cert.MatProduct

variable (V : (c : Dev nD) → (b : Ref sig .tc) → Buf (Elt Ideal) ((c : Thread nD τ).loc b))

/-- The left array as the launch finds it. -/
abbrev lhs (c : Dev nD) : Vec Ideal S2048x64 .f32 := V c main_arg2
/-- The right array as the launch finds it. -/
abbrev rhs (c : Dev nD) : Vec Ideal S64x2048 .f32 := V c main_v8

theorem zeros : (![0, 0] : Fin 2 → Nat) = fun _ => 0 := funext fun a => by fin_cases a <;> rfl

theorem plain : IsPlain (dot_S256x64_S64x256_S256x256_1_0_0_1_n_n) := ⟨rfl, rfl, rfl, rfl, rfl, rfl⟩

/-- The body's payload is the product of its two loaded bands. -/
theorem payload_eq (x0 : Vec Ideal S256x64 .f32) (x1 : Vec Ideal S64x256 .f32) : k1_pay1 x0 x1 = mm x0 x1 := by
  unfold k1_pay1
  simp only [shapeCast_self]
  exact matmul_zero_eq_mm plain _ x0 x1

/-- The index maps over the grid: the left window moves with the tile's row and stays at column block 0, the right
    window stays at row block 0 and moves with the tile's column, and a tile's block indices are below 8. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = win1_2.index t (1 : Fin 2)
    ∧ win1_2.index t (0 : Fin 2) ≤ 7 ∧ win1_2.index t (1 : Fin 2) ≤ 7 :=
  (by decide +kernel : ∀ t : Fin grid1.N, _)

/-- Every tile is some point's. -/
theorem index_onto : ∀ (q0 : Fin 8) (q1 : Fin 8), ∃ t : Fin cfg1.N, win1_2.index t = ![q0.val, q1.val] :=
  (by decide +kernel : ∀ (q0 : Fin 8) (q1 : Fin 8), ∃ t : Fin grid1.N, win1_2.index t = ![q0.val, q1.val])

/-- What point `t` writes back is tile `t` of the product of the two arrays. -/
theorem flushed_eq (c : Dev nD) (t : Fin cfg1.N) :
    (dat1 V c).flushed 2 t = ((cfg1.win 2).blk t).view.read (Elt Ideal) (mm (lhs V c) (rhs V c)) := by
  show (cfg1.win 2).cut (grid1.coords t) ((dat1 V c).after 2 t) = _
  rw [after1_2]
  unfold out1_2
  rw [View.canon_unit_zero zeros]
  simp only [View.ld_unit_zero (S := S256x64) zeros, View.ld_unit_zero (S := S64x256) zeros]
  rw [payload_eq]
  obtain ⟨e0, e1, e2, e3, e4, e5⟩ := index_facts t
  funext j
  obtain ⟨p, q, rfl⟩ : ∃ (p : Fin 256) (q : Fin 256), j = ix2 p q := ⟨j 0, j 1, eq_ix2 j⟩
  show mm (iblk1 V c 0 t) (iblk1 V c 1 t) (ix2 p q) = mm (lhs V c) (rhs V c) (((cfg1.win 2).blk t).view.emb (ix2 p q))
  refine (mm_tile (lhs V c) (rhs V c) (iblk1 V c 0 t) (iblk1 V c 1 t)
    (fun y => ⟨win1_2.index t (0 : Fin 2) * 256 + y.val, by have := y.isLt; omega⟩)
    (fun y => ⟨win1_2.index t (1 : Fin 2) * 256 + y.val, by have := y.isLt; omega⟩) ?_ ?_ p q).trans ?_
  · intro y k
    show V c main_arg2 (((cfg1.win 0).blk t).view.emb (ix2 y k)) = V c main_arg2 (ix2 _ k)
    refine congrArg _ (funext fun a => Fin.ext ?_)
    match a with
    | ⟨0, _⟩ => show win1_0.index t (0 : Fin 2) * 256 + 1 * y.val = win1_2.index t (0 : Fin 2) * 256 + y.val; omega
    | ⟨1, _⟩ => show win1_0.index t (1 : Fin 2) * 64 + 1 * k.val = k.val; omega
  · intro k y
    show V c main_v8 (((cfg1.win 1).blk t).view.emb (ix2 k y)) = V c main_v8 (ix2 k _)
    refine congrArg _ (funext fun a => Fin.ext ?_)
    match a with
    | ⟨0, _⟩ => show win1_1.index t (0 : Fin 2) * 64 + 1 * k.val = k.val; omega
    | ⟨1, _⟩ => show win1_1.index t (1 : Fin 2) * 256 + 1 * y.val = win1_2.index t (1 : Fin 2) * 256 + y.val; omega
  · refine congrArg _ (funext fun a => Fin.ext ?_)
    match a with
    | ⟨0, _⟩ => show win1_2.index t (0 : Fin 2) * 256 + p.val = win1_2.index t (0 : Fin 2) * 256 + 1 * p.val; omega
    | ⟨1, _⟩ => show win1_2.index t (1 : Fin 2) * 256 + q.val = win1_2.index t (1 : Fin 2) * 256 + 1 * q.val; omega

/-- An index of the result is in point `t`'s tile iff each coordinate is in the tile's range on its axis. -/
theorem mem_tile (t : Fin cfg1.N) (i : S2048x2048.Idx) :
    i ∈ ((cfg1.win 2).blk t).view.set ↔ ∀ a : Fin 2, win1_2.index t a * S256x256.size a ≤ (i a).val ∧ (i a).val < win1_2.index t a * S256x256.size a + S256x256.size a := by
  show i ∈ ((View.whole main_v9).slice (win1_2.rect t)).set ↔ _
  rw [View.set_slice_whole, Rect.mem_set_unit]
  exact Iff.rfl

/-- The 64 tiles cover the result. -/
theorem covered (i : S2048x2048.Idx) : ∃ t : Fin cfg1.N, (cfg1.win 2).flush t = true ∧ i ∈ ((cfg1.win 2).blk t).view.set := by
  have hi0 : (i 0).val < 2048 := (i 0).isLt
  have hi1 : (i 1).val < 2048 := (i 1).isLt
  obtain ⟨t, ht⟩ := index_onto ⟨(i 0).val / 256, by omega⟩ ⟨(i 1).val / 256, by omega⟩
  have q0 : win1_2.index t (0 : Fin 2) = (i 0).val / 256 := congrFun ht 0
  have q1 : win1_2.index t (1 : Fin 2) = (i 1).val / 256 := congrFun ht 1
  refine ⟨t, flush1_2 t, ?_⟩
  rw [mem_tile]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 256 ≤ (i 1).val ∧ (i 1).val < win1_2.index t (1 : Fin 2) * 256 + 256; omega

/-- The result array after the launch is the product of the two arrays as the launch found them. -/
theorem result (c : Dev nD) : (dat1 V c).arrAt 2 cfg1.N = mm (lhs V c) (rhs V c) :=
  (dat1 V c).arrAt_eq_of_cover 2 (mm (lhs V c) (rhs V c)) (fun t _ => flushed_eq V c t) covered

end Cert.KernelIdeal.Region1

end
-- ==== Proof.Region2.lean ====
/-
  A launch that multiplies two [2048, 2048] arrays, tile by tile on an 8 × 8 grid. Point (i, j)
  reads the row band i of the left array (256 rows, all 2048 columns) and the column band j of the right array
  (all 2048 rows, 256 columns), multiplies them on the matrix unit into a zero accumulator and writes the
  [256, 256] tile (i, j) of the result. Every entry's sum runs over the whole shared axis inside one point, so
  the tile a point writes is the tile of the whole product, the 64 tiles cover the result, and the result array
  ends holding the product of the two arrays as the launch found them.
-/
import proofs.«137536_j69630009803034_1_alg».proof.Proof.Gen.KernelIdeal.Frame
import proofs.«137536_j69630009803034_1_alg».proof.Proof.LibMatProduct
import Idealize.ShloMosaic.Lib.Pipeline.Value

set_option maxRecDepth 16384

noncomputable section

namespace Cert.KernelIdeal.Region2

open Idealize.ShloMosaic Idealize.ShloMosaic.TcCoe Idealize.ShloMosaic.ValueIdx Idealize.ShloMosaic.PlainDot
open Idealize.SL.Sem
open Cert.KernelIdeal Cert.KernelIdeal.Gen Cert.MatProduct

variable (V : (c : Dev nD) → (b : Ref sig .tc) → Buf (Elt Ideal) ((c : Thread nD τ).loc b))

/-- The left array as the launch finds it. -/
abbrev lhs (c : Dev nD) : Vec Ideal S2048x2048 .f32 := V c main_v11
/-- The right array as the launch finds it. -/
abbrev rhs (c : Dev nD) : Vec Ideal S2048x2048 .f32 := V c main_v5

theorem zeros : (![0, 0] : Fin 2 → Nat) = fun _ => 0 := funext fun a => by fin_cases a <;> rfl

theorem plain : IsPlain (dot_S256x2048_S2048x256_S256x256_1_0_0_1_n_n) := ⟨rfl, rfl, rfl, rfl, rfl, rfl⟩

/-- The body's payload is the product of its two loaded bands. -/
theorem payload_eq (x0 : Vec Ideal S256x2048 .f32) (x1 : Vec Ideal S2048x256 .f32) : k2_pay1 x0 x1 = mm x0 x1 := by
  unfold k2_pay1
  simp only [shapeCast_self]
  exact matmul_zero_eq_mm plain _ x0 x1

/-- The index maps over the grid: the left window moves with the tile's row and stays at column block 0, the right
    window stays at row block 0 and moves with the tile's column, and a tile's block indices are below 8. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = win2_2.index t (1 : Fin 2)
    ∧ win2_2.index t (0 : Fin 2) ≤ 7 ∧ win2_2.index t (1 : Fin 2) ≤ 7 :=
  (by decide +kernel : ∀ t : Fin grid2.N, _)

/-- Every tile is some point's. -/
theorem index_onto : ∀ (q0 : Fin 8) (q1 : Fin 8), ∃ t : Fin cfg2.N, win2_2.index t = ![q0.val, q1.val] :=
  (by decide +kernel : ∀ (q0 : Fin 8) (q1 : Fin 8), ∃ t : Fin grid2.N, win2_2.index t = ![q0.val, q1.val])

/-- What point `t` writes back is tile `t` of the product of the two arrays. -/
theorem flushed_eq (c : Dev nD) (t : Fin cfg2.N) :
    (dat2 V c).flushed 2 t = ((cfg2.win 2).blk t).view.read (Elt Ideal) (mm (lhs V c) (rhs V c)) := by
  show (cfg2.win 2).cut (grid2.coords t) ((dat2 V c).after 2 t) = _
  rw [after2_2]
  unfold out2_2
  rw [View.canon_unit_zero zeros]
  simp only [View.ld_unit_zero (S := S256x2048) zeros, View.ld_unit_zero (S := S2048x256) zeros]
  rw [payload_eq]
  obtain ⟨e0, e1, e2, e3, e4, e5⟩ := index_facts t
  funext j
  obtain ⟨p, q, rfl⟩ : ∃ (p : Fin 256) (q : Fin 256), j = ix2 p q := ⟨j 0, j 1, eq_ix2 j⟩
  show mm (iblk2 V c 0 t) (iblk2 V c 1 t) (ix2 p q) = mm (lhs V c) (rhs V c) (((cfg2.win 2).blk t).view.emb (ix2 p q))
  refine (mm_tile (lhs V c) (rhs V c) (iblk2 V c 0 t) (iblk2 V c 1 t)
    (fun y => ⟨win2_2.index t (0 : Fin 2) * 256 + y.val, by have := y.isLt; omega⟩)
    (fun y => ⟨win2_2.index t (1 : Fin 2) * 256 + y.val, by have := y.isLt; omega⟩) ?_ ?_ p q).trans ?_
  · intro y k
    show V c main_v11 (((cfg2.win 0).blk t).view.emb (ix2 y k)) = V c main_v11 (ix2 _ k)
    refine congrArg _ (funext fun a => Fin.ext ?_)
    match a with
    | ⟨0, _⟩ => show win2_0.index t (0 : Fin 2) * 256 + 1 * y.val = win2_2.index t (0 : Fin 2) * 256 + y.val; omega
    | ⟨1, _⟩ => show win2_0.index t (1 : Fin 2) * 2048 + 1 * k.val = k.val; omega
  · intro k y
    show V c main_v5 (((cfg2.win 1).blk t).view.emb (ix2 k y)) = V c main_v5 (ix2 k _)
    refine congrArg _ (funext fun a => Fin.ext ?_)
    match a with
    | ⟨0, _⟩ => show win2_1.index t (0 : Fin 2) * 2048 + 1 * k.val = k.val; omega
    | ⟨1, _⟩ => show win2_1.index t (1 : Fin 2) * 256 + 1 * y.val = win2_2.index t (1 : Fin 2) * 256 + y.val; omega
  · refine congrArg _ (funext fun a => Fin.ext ?_)
    match a with
    | ⟨0, _⟩ => show win2_2.index t (0 : Fin 2) * 256 + p.val = win2_2.index t (0 : Fin 2) * 256 + 1 * p.val; omega
    | ⟨1, _⟩ => show win2_2.index t (1 : Fin 2) * 256 + q.val = win2_2.index t (1 : Fin 2) * 256 + 1 * q.val; omega

/-- An index of the result is in point `t`'s tile iff each coordinate is in the tile's range on its axis. -/
theorem mem_tile (t : Fin cfg2.N) (i : S2048x2048.Idx) :
    i ∈ ((cfg2.win 2).blk t).view.set ↔ ∀ a : Fin 2, win2_2.index t a * S256x256.size a ≤ (i a).val ∧ (i a).val < win2_2.index t a * S256x256.size a + S256x256.size a := by
  show i ∈ ((View.whole main_v14).slice (win2_2.rect t)).set ↔ _
  rw [View.set_slice_whole, Rect.mem_set_unit]
  exact Iff.rfl

/-- The 64 tiles cover the result. -/
theorem covered (i : S2048x2048.Idx) : ∃ t : Fin cfg2.N, (cfg2.win 2).flush t = true ∧ i ∈ ((cfg2.win 2).blk t).view.set := by
  have hi0 : (i 0).val < 2048 := (i 0).isLt
  have hi1 : (i 1).val < 2048 := (i 1).isLt
  obtain ⟨t, ht⟩ := index_onto ⟨(i 0).val / 256, by omega⟩ ⟨(i 1).val / 256, by omega⟩
  have q0 : win2_2.index t (0 : Fin 2) = (i 0).val / 256 := congrFun ht 0
  have q1 : win2_2.index t (1 : Fin 2) = (i 1).val / 256 := congrFun ht 1
  refine ⟨t, flush2_2 t, ?_⟩
  rw [mem_tile]
  intro a
  match a with
  | ⟨0, _⟩ => show win2_2.index t (0 : Fin 2) * 256 ≤ (i 0).val ∧ (i 0).val < win2_2.index t (0 : Fin 2) * 256 + 256; omega
  | ⟨1, _⟩ => show win2_2.index t (1 : Fin 2) * 256 ≤ (i 1).val ∧ (i 1).val < win2_2.index t (1 : Fin 2) * 256 + 256; omega

/-- The result array after the launch is the product of the two arrays as the launch found them. -/
theorem result (c : Dev nD) : (dat2 V c).arrAt 2 cfg2.N = mm (lhs V c) (rhs V c) :=
  (dat2 V c).arrAt_eq_of_cover 2 (mm (lhs V c) (rhs V c)) (fun t _ => flushed_eq V c t) covered

end Cert.KernelIdeal.Region2

end
-- ==== Proof.Region3.lean ====
/-
  A launch that multiplies two [2048, 2048] arrays, tile by tile on an 8 × 8 grid. Point (i, j)
  reads the row band i of the left array (256 rows, all 2048 columns) and the column band j of the right array
  (all 2048 rows, 256 columns), multiplies them on the matrix unit into a zero accumulator and writes the
  [256, 256] tile (i, j) of the result. Every entry's sum runs over the whole shared axis inside one point, so
  the tile a point writes is the tile of the whole product, the 64 tiles cover the result, and the result array
  ends holding the product of the two arrays as the launch found them.
-/
import proofs.«137536_j69630009803034_1_alg».proof.Proof.Gen.KernelIdeal.Frame
import proofs.«137536_j69630009803034_1_alg».proof.Proof.LibMatProduct
import Idealize.ShloMosaic.Lib.Pipeline.Value

set_option maxRecDepth 16384

noncomputable section

namespace Cert.KernelIdeal.Region3

open Idealize.ShloMosaic Idealize.ShloMosaic.TcCoe Idealize.ShloMosaic.ValueIdx Idealize.ShloMosaic.PlainDot
open Idealize.SL.Sem
open Cert.KernelIdeal Cert.KernelIdeal.Gen Cert.MatProduct

variable (V : (c : Dev nD) → (b : Ref sig .tc) → Buf (Elt Ideal) ((c : Thread nD τ).loc b))

/-- The left array as the launch finds it. -/
abbrev lhs (c : Dev nD) : Vec Ideal S2048x2048 .f32 := V c main_v5
/-- The right array as the launch finds it. -/
abbrev rhs (c : Dev nD) : Vec Ideal S2048x2048 .f32 := V c main_v15

theorem zeros : (![0, 0] : Fin 2 → Nat) = fun _ => 0 := funext fun a => by fin_cases a <;> rfl

theorem plain : IsPlain (dot_S256x2048_S2048x256_S256x256_1_0_0_1_n_n) := ⟨rfl, rfl, rfl, rfl, rfl, rfl⟩

/-- The body's payload is the product of its two loaded bands. -/
theorem payload_eq (x0 : Vec Ideal S256x2048 .f32) (x1 : Vec Ideal S2048x256 .f32) : k3_pay1 x0 x1 = mm x0 x1 := by
  unfold k3_pay1
  simp only [shapeCast_self]
  exact matmul_zero_eq_mm plain _ x0 x1

/-- The index maps over the grid: the left window moves with the tile's row and stays at column block 0, the right
    window stays at row block 0 and moves with the tile's column, and a tile's block indices are below 8. -/
theorem index_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = win3_2.index t (1 : Fin 2)
    ∧ win3_2.index t (0 : Fin 2) ≤ 7 ∧ win3_2.index t (1 : Fin 2) ≤ 7 :=
  (by decide +kernel : ∀ t : Fin grid3.N, _)

/-- Every tile is some point's. -/
theorem index_onto : ∀ (q0 : Fin 8) (q1 : Fin 8), ∃ t : Fin cfg3.N, win3_2.index t = ![q0.val, q1.val] :=
  (by decide +kernel : ∀ (q0 : Fin 8) (q1 : Fin 8), ∃ t : Fin grid3.N, win3_2.index t = ![q0.val, q1.val])

/-- What point `t` writes back is tile `t` of the product of the two arrays. -/
theorem flushed_eq (c : Dev nD) (t : Fin cfg3.N) :
    (dat3 V c).flushed 2 t = ((cfg3.win 2).blk t).view.read (Elt Ideal) (mm (lhs V c) (rhs V c)) := by
  show (cfg3.win 2).cut (grid3.coords t) ((dat3 V c).after 2 t) = _
  rw [after3_2]
  unfold out3_2
  rw [View.canon_unit_zero zeros]
  simp only [View.ld_unit_zero (S := S256x2048) zeros, View.ld_unit_zero (S := S2048x256) zeros]
  rw [payload_eq]
  obtain ⟨e0, e1, e2, e3, e4, e5⟩ := index_facts t
  funext j
  obtain ⟨p, q, rfl⟩ : ∃ (p : Fin 256) (q : Fin 256), j = ix2 p q := ⟨j 0, j 1, eq_ix2 j⟩
  show mm (iblk3 V c 0 t) (iblk3 V c 1 t) (ix2 p q) = mm (lhs V c) (rhs V c) (((cfg3.win 2).blk t).view.emb (ix2 p q))
  refine (mm_tile (lhs V c) (rhs V c) (iblk3 V c 0 t) (iblk3 V c 1 t)
    (fun y => ⟨win3_2.index t (0 : Fin 2) * 256 + y.val, by have := y.isLt; omega⟩)
    (fun y => ⟨win3_2.index t (1 : Fin 2) * 256 + y.val, by have := y.isLt; omega⟩) ?_ ?_ p q).trans ?_
  · intro y k
    show V c main_v5 (((cfg3.win 0).blk t).view.emb (ix2 y k)) = V c main_v5 (ix2 _ k)
    refine congrArg _ (funext fun a => Fin.ext ?_)
    match a with
    | ⟨0, _⟩ => show win3_0.index t (0 : Fin 2) * 256 + 1 * y.val = win3_2.index t (0 : Fin 2) * 256 + y.val; omega
    | ⟨1, _⟩ => show win3_0.index t (1 : Fin 2) * 2048 + 1 * k.val = k.val; omega
  · intro k y
    show V c main_v15 (((cfg3.win 1).blk t).view.emb (ix2 k y)) = V c main_v15 (ix2 k _)
    refine congrArg _ (funext fun a => Fin.ext ?_)
    match a with
    | ⟨0, _⟩ => show win3_1.index t (0 : Fin 2) * 2048 + 1 * k.val = k.val; omega
    | ⟨1, _⟩ => show win3_1.index t (1 : Fin 2) * 256 + 1 * y.val = win3_2.index t (1 : Fin 2) * 256 + y.val; omega
  · refine congrArg _ (funext fun a => Fin.ext ?_)
    match a with
    | ⟨0, _⟩ => show win3_2.index t (0 : Fin 2) * 256 + p.val = win3_2.index t (0 : Fin 2) * 256 + 1 * p.val; omega
    | ⟨1, _⟩ => show win3_2.index t (1 : Fin 2) * 256 + q.val = win3_2.index t (1 : Fin 2) * 256 + 1 * q.val; omega

/-- An index of the result is in point `t`'s tile iff each coordinate is in the tile's range on its axis. -/
theorem mem_tile (t : Fin cfg3.N) (i : S2048x2048.Idx) :
    i ∈ ((cfg3.win 2).blk t).view.set ↔ ∀ a : Fin 2, win3_2.index t a * S256x256.size a ≤ (i a).val ∧ (i a).val < win3_2.index t a * S256x256.size a + S256x256.size a := by
  show i ∈ ((View.whole main_v16).slice (win3_2.rect t)).set ↔ _
  rw [View.set_slice_whole, Rect.mem_set_unit]
  exact Iff.rfl

/-- The 64 tiles cover the result. -/
theorem covered (i : S2048x2048.Idx) : ∃ t : Fin cfg3.N, (cfg3.win 2).flush t = true ∧ i ∈ ((cfg3.win 2).blk t).view.set := by
  have hi0 : (i 0).val < 2048 := (i 0).isLt
  have hi1 : (i 1).val < 2048 := (i 1).isLt
  obtain ⟨t, ht⟩ := index_onto ⟨(i 0).val / 256, by omega⟩ ⟨(i 1).val / 256, by omega⟩
  have q0 : win3_2.index t (0 : Fin 2) = (i 0).val / 256 := congrFun ht 0
  have q1 : win3_2.index t (1 : Fin 2) = (i 1).val / 256 := congrFun ht 1
  refine ⟨t, flush3_2 t, ?_⟩
  rw [mem_tile]
  intro a
  match a with
  | ⟨0, _⟩ => show win3_2.index t (0 : Fin 2) * 256 ≤ (i 0).val ∧ (i 0).val < win3_2.index t (0 : Fin 2) * 256 + 256; omega
  | ⟨1, _⟩ => show win3_2.index t (1 : Fin 2) * 256 ≤ (i 1).val ∧ (i 1).val < win3_2.index t (1 : Fin 2) * 256 + 256; omega

/-- The result array after the launch is the product of the two arrays as the launch found them. -/
theorem result (c : Dev nD) : (dat3 V c).arrAt 2 cfg3.N = mm (lhs V c) (rhs V c) :=
  (dat3 V c).arrAt_eq_of_cover 2 (mm (lhs V c) (rhs V c)) (fun t _ => flushed_eq V c t) covered

end Cert.KernelIdeal.Region3

end
-- ==== Proof.Region4.lean ====
/-
  A launch that multiplies two [2048, 2048] arrays, tile by tile on an 8 × 8 grid. Point (i, j)
  reads the row band i of the left array (256 rows, all 2048 columns) and the column band j of the right array
  (all 2048 rows, 256 columns), multiplies them on the matrix unit into a zero accumulator and writes the
  [256, 256] tile (i, j) of the result. Every entry's sum runs over the whole shared axis inside one point, so
  the tile a point writes is the tile of the whole product, the 64 tiles cover the result, and the result array
  ends holding the product of the two arrays as the launch found them.
-/
import proofs.«137536_j69630009803034_1_alg».proof.Proof.Gen.KernelIdeal.Frame
import proofs.«137536_j69630009803034_1_alg».proof.Proof.LibMatProduct
import Idealize.ShloMosaic.Lib.Pipeline.Value

set_option maxRecDepth 16384

noncomputable section

namespace Cert.KernelIdeal.Region4

open Idealize.ShloMosaic Idealize.ShloMosaic.TcCoe Idealize.ShloMosaic.ValueIdx Idealize.ShloMosaic.PlainDot
open Idealize.SL.Sem
open Cert.KernelIdeal Cert.KernelIdeal.Gen Cert.MatProduct

variable (V : (c : Dev nD) → (b : Ref sig .tc) → Buf (Elt Ideal) ((c : Thread nD τ).loc b))

/-- The left array as the launch finds it. -/
abbrev lhs (c : Dev nD) : Vec Ideal S2048x2048 .f32 := V c main_v11
/-- The right array as the launch finds it. -/
abbrev rhs (c : Dev nD) : Vec Ideal S2048x2048 .f32 := V c main_v16

theorem zeros : (![0, 0] : Fin 2 → Nat) = fun _ => 0 := funext fun a => by fin_cases a <;> rfl

theorem plain : IsPlain (dot_S256x2048_S2048x256_S256x256_1_0_0_1_n_n) := ⟨rfl, rfl, rfl, rfl, rfl, rfl⟩

/-- The body's payload is the product of its two loaded bands. -/
theorem payload_eq (x0 : Vec Ideal S256x2048 .f32) (x1 : Vec Ideal S2048x256 .f32) : k4_pay1 x0 x1 = mm x0 x1 := by
  unfold k4_pay1
  simp only [shapeCast_self]
  exact matmul_zero_eq_mm plain _ x0 x1

/-- The index maps over the grid: the left window moves with the tile's row and stays at column block 0, the right
    window stays at row block 0 and moves with the tile's column, and a tile's block indices are below 8. -/
theorem index_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = win4_2.index t (1 : Fin 2)
    ∧ win4_2.index t (0 : Fin 2) ≤ 7 ∧ win4_2.index t (1 : Fin 2) ≤ 7 :=
  (by decide +kernel : ∀ t : Fin grid4.N, _)

/-- Every tile is some point's. -/
theorem index_onto : ∀ (q0 : Fin 8) (q1 : Fin 8), ∃ t : Fin cfg4.N, win4_2.index t = ![q0.val, q1.val] :=
  (by decide +kernel : ∀ (q0 : Fin 8) (q1 : Fin 8), ∃ t : Fin grid4.N, win4_2.index t = ![q0.val, q1.val])

/-- What point `t` writes back is tile `t` of the product of the two arrays. -/
theorem flushed_eq (c : Dev nD) (t : Fin cfg4.N) :
    (dat4 V c).flushed 2 t = ((cfg4.win 2).blk t).view.read (Elt Ideal) (mm (lhs V c) (rhs V c)) := by
  show (cfg4.win 2).cut (grid4.coords t) ((dat4 V c).after 2 t) = _
  rw [after4_2]
  unfold out4_2
  rw [View.canon_unit_zero zeros]
  simp only [View.ld_unit_zero (S := S256x2048) zeros, View.ld_unit_zero (S := S2048x256) zeros]
  rw [payload_eq]
  obtain ⟨e0, e1, e2, e3, e4, e5⟩ := index_facts t
  funext j
  obtain ⟨p, q, rfl⟩ : ∃ (p : Fin 256) (q : Fin 256), j = ix2 p q := ⟨j 0, j 1, eq_ix2 j⟩
  show mm (iblk4 V c 0 t) (iblk4 V c 1 t) (ix2 p q) = mm (lhs V c) (rhs V c) (((cfg4.win 2).blk t).view.emb (ix2 p q))
  refine (mm_tile (lhs V c) (rhs V c) (iblk4 V c 0 t) (iblk4 V c 1 t)
    (fun y => ⟨win4_2.index t (0 : Fin 2) * 256 + y.val, by have := y.isLt; omega⟩)
    (fun y => ⟨win4_2.index t (1 : Fin 2) * 256 + y.val, by have := y.isLt; omega⟩) ?_ ?_ p q).trans ?_
  · intro y k
    show V c main_v11 (((cfg4.win 0).blk t).view.emb (ix2 y k)) = V c main_v11 (ix2 _ k)
    refine congrArg _ (funext fun a => Fin.ext ?_)
    match a with
    | ⟨0, _⟩ => show win4_0.index t (0 : Fin 2) * 256 + 1 * y.val = win4_2.index t (0 : Fin 2) * 256 + y.val; omega
    | ⟨1, _⟩ => show win4_0.index t (1 : Fin 2) * 2048 + 1 * k.val = k.val; omega
  · intro k y
    show V c main_v16 (((cfg4.win 1).blk t).view.emb (ix2 k y)) = V c main_v16 (ix2 k _)
    refine congrArg _ (funext fun a => Fin.ext ?_)
    match a with
    | ⟨0, _⟩ => show win4_1.index t (0 : Fin 2) * 2048 + 1 * k.val = k.val; omega
    | ⟨1, _⟩ => show win4_1.index t (1 : Fin 2) * 256 + 1 * y.val = win4_2.index t (1 : Fin 2) * 256 + y.val; omega
  · refine congrArg _ (funext fun a => Fin.ext ?_)
    match a with
    | ⟨0, _⟩ => show win4_2.index t (0 : Fin 2) * 256 + p.val = win4_2.index t (0 : Fin 2) * 256 + 1 * p.val; omega
    | ⟨1, _⟩ => show win4_2.index t (1 : Fin 2) * 256 + q.val = win4_2.index t (1 : Fin 2) * 256 + 1 * q.val; omega

/-- An index of the result is in point `t`'s tile iff each coordinate is in the tile's range on its axis. -/
theorem mem_tile (t : Fin cfg4.N) (i : S2048x2048.Idx) :
    i ∈ ((cfg4.win 2).blk t).view.set ↔ ∀ a : Fin 2, win4_2.index t a * S256x256.size a ≤ (i a).val ∧ (i a).val < win4_2.index t a * S256x256.size a + S256x256.size a := by
  show i ∈ ((View.whole main_v17).slice (win4_2.rect t)).set ↔ _
  rw [View.set_slice_whole, Rect.mem_set_unit]
  exact Iff.rfl

/-- The 64 tiles cover the result. -/
theorem covered (i : S2048x2048.Idx) : ∃ t : Fin cfg4.N, (cfg4.win 2).flush t = true ∧ i ∈ ((cfg4.win 2).blk t).view.set := by
  have hi0 : (i 0).val < 2048 := (i 0).isLt
  have hi1 : (i 1).val < 2048 := (i 1).isLt
  obtain ⟨t, ht⟩ := index_onto ⟨(i 0).val / 256, by omega⟩ ⟨(i 1).val / 256, by omega⟩
  have q0 : win4_2.index t (0 : Fin 2) = (i 0).val / 256 := congrFun ht 0
  have q1 : win4_2.index t (1 : Fin 2) = (i 1).val / 256 := congrFun ht 1
  refine ⟨t, flush4_2 t, ?_⟩
  rw [mem_tile]
  intro a
  match a with
  | ⟨0, _⟩ => show win4_2.index t (0 : Fin 2) * 256 ≤ (i 0).val ∧ (i 0).val < win4_2.index t (0 : Fin 2) * 256 + 256; omega
  | ⟨1, _⟩ => show win4_2.index t (1 : Fin 2) * 256 ≤ (i 1).val ∧ (i 1).val < win4_2.index t (1 : Fin 2) * 256 + 256; omega

/-- The result array after the launch is the product of the two arrays as the launch found them. -/
theorem result (c : Dev nD) : (dat4 V c).arrAt 2 cfg4.N = mm (lhs V c) (rhs V c) :=
  (dat4 V c).arrAt_eq_of_cover 2 (mm (lhs V c) (rhs V c)) (fun t _ => flushed_eq V c t) covered

end Cert.KernelIdeal.Region4

end
-- ==== Proof.Region5.lean ====
/-
  A launch that multiplies two [2048, 2048] arrays, tile by tile on an 8 × 8 grid. Point (i, j)
  reads the row band i of the left array (256 rows, all 2048 columns) and the column band j of the right array
  (all 2048 rows, 256 columns), multiplies them on the matrix unit into a zero accumulator and writes the
  [256, 256] tile (i, j) of the result. Every entry's sum runs over the whole shared axis inside one point, so
  the tile a point writes is the tile of the whole product, the 64 tiles cover the result, and the result array
  ends holding the product of the two arrays as the launch found them.
-/
import proofs.«137536_j69630009803034_1_alg».proof.Proof.Gen.KernelIdeal.Frame
import proofs.«137536_j69630009803034_1_alg».proof.Proof.LibMatProduct
import Idealize.ShloMosaic.Lib.Pipeline.Value

set_option maxRecDepth 16384

noncomputable section

namespace Cert.KernelIdeal.Region5

open Idealize.ShloMosaic Idealize.ShloMosaic.TcCoe Idealize.ShloMosaic.ValueIdx Idealize.ShloMosaic.PlainDot
open Idealize.SL.Sem
open Cert.KernelIdeal Cert.KernelIdeal.Gen Cert.MatProduct

variable (V : (c : Dev nD) → (b : Ref sig .tc) → Buf (Elt Ideal) ((c : Thread nD τ).loc b))

/-- The left array as the launch finds it. -/
abbrev lhs (c : Dev nD) : Vec Ideal S2048x2048 .f32 := V c main_v16
/-- The right array as the launch finds it. -/
abbrev rhs (c : Dev nD) : Vec Ideal S2048x2048 .f32 := V c main_v18

theorem zeros : (![0, 0] : Fin 2 → Nat) = fun _ => 0 := funext fun a => by fin_cases a <;> rfl

theorem plain : IsPlain (dot_S256x2048_S2048x256_S256x256_1_0_0_1_n_n) := ⟨rfl, rfl, rfl, rfl, rfl, rfl⟩

/-- The body's payload is the product of its two loaded bands. -/
theorem payload_eq (x0 : Vec Ideal S256x2048 .f32) (x1 : Vec Ideal S2048x256 .f32) : k5_pay1 x0 x1 = mm x0 x1 := by
  unfold k5_pay1
  simp only [shapeCast_self]
  exact matmul_zero_eq_mm plain _ x0 x1

/-- The index maps over the grid: the left window moves with the tile's row and stays at column block 0, the right
    window stays at row block 0 and moves with the tile's column, and a tile's block indices are below 8. -/
theorem index_facts : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = win5_2.index t (1 : Fin 2)
    ∧ win5_2.index t (0 : Fin 2) ≤ 7 ∧ win5_2.index t (1 : Fin 2) ≤ 7 :=
  (by decide +kernel : ∀ t : Fin grid5.N, _)

/-- Every tile is some point's. -/
theorem index_onto : ∀ (q0 : Fin 8) (q1 : Fin 8), ∃ t : Fin cfg5.N, win5_2.index t = ![q0.val, q1.val] :=
  (by decide +kernel : ∀ (q0 : Fin 8) (q1 : Fin 8), ∃ t : Fin grid5.N, win5_2.index t = ![q0.val, q1.val])

/-- What point `t` writes back is tile `t` of the product of the two arrays. -/
theorem flushed_eq (c : Dev nD) (t : Fin cfg5.N) :
    (dat5 V c).flushed 2 t = ((cfg5.win 2).blk t).view.read (Elt Ideal) (mm (lhs V c) (rhs V c)) := by
  show (cfg5.win 2).cut (grid5.coords t) ((dat5 V c).after 2 t) = _
  rw [after5_2]
  unfold out5_2
  rw [View.canon_unit_zero zeros]
  simp only [View.ld_unit_zero (S := S256x2048) zeros, View.ld_unit_zero (S := S2048x256) zeros]
  rw [payload_eq]
  obtain ⟨e0, e1, e2, e3, e4, e5⟩ := index_facts t
  funext j
  obtain ⟨p, q, rfl⟩ : ∃ (p : Fin 256) (q : Fin 256), j = ix2 p q := ⟨j 0, j 1, eq_ix2 j⟩
  show mm (iblk5 V c 0 t) (iblk5 V c 1 t) (ix2 p q) = mm (lhs V c) (rhs V c) (((cfg5.win 2).blk t).view.emb (ix2 p q))
  refine (mm_tile (lhs V c) (rhs V c) (iblk5 V c 0 t) (iblk5 V c 1 t)
    (fun y => ⟨win5_2.index t (0 : Fin 2) * 256 + y.val, by have := y.isLt; omega⟩)
    (fun y => ⟨win5_2.index t (1 : Fin 2) * 256 + y.val, by have := y.isLt; omega⟩) ?_ ?_ p q).trans ?_
  · intro y k
    show V c main_v16 (((cfg5.win 0).blk t).view.emb (ix2 y k)) = V c main_v16 (ix2 _ k)
    refine congrArg _ (funext fun a => Fin.ext ?_)
    match a with
    | ⟨0, _⟩ => show win5_0.index t (0 : Fin 2) * 256 + 1 * y.val = win5_2.index t (0 : Fin 2) * 256 + y.val; omega
    | ⟨1, _⟩ => show win5_0.index t (1 : Fin 2) * 2048 + 1 * k.val = k.val; omega
  · intro k y
    show V c main_v18 (((cfg5.win 1).blk t).view.emb (ix2 k y)) = V c main_v18 (ix2 k _)
    refine congrArg _ (funext fun a => Fin.ext ?_)
    match a with
    | ⟨0, _⟩ => show win5_1.index t (0 : Fin 2) * 2048 + 1 * k.val = k.val; omega
    | ⟨1, _⟩ => show win5_1.index t (1 : Fin 2) * 256 + 1 * y.val = win5_2.index t (1 : Fin 2) * 256 + y.val; omega
  · refine congrArg _ (funext fun a => Fin.ext ?_)
    match a with
    | ⟨0, _⟩ => show win5_2.index t (0 : Fin 2) * 256 + p.val = win5_2.index t (0 : Fin 2) * 256 + 1 * p.val; omega
    | ⟨1, _⟩ => show win5_2.index t (1 : Fin 2) * 256 + q.val = win5_2.index t (1 : Fin 2) * 256 + 1 * q.val; omega

/-- An index of the result is in point `t`'s tile iff each coordinate is in the tile's range on its axis. -/
theorem mem_tile (t : Fin cfg5.N) (i : S2048x2048.Idx) :
    i ∈ ((cfg5.win 2).blk t).view.set ↔ ∀ a : Fin 2, win5_2.index t a * S256x256.size a ≤ (i a).val ∧ (i a).val < win5_2.index t a * S256x256.size a + S256x256.size a := by
  show i ∈ ((View.whole main_v19).slice (win5_2.rect t)).set ↔ _
  rw [View.set_slice_whole, Rect.mem_set_unit]
  exact Iff.rfl

/-- The 64 tiles cover the result. -/
theorem covered (i : S2048x2048.Idx) : ∃ t : Fin cfg5.N, (cfg5.win 2).flush t = true ∧ i ∈ ((cfg5.win 2).blk t).view.set := by
  have hi0 : (i 0).val < 2048 := (i 0).isLt
  have hi1 : (i 1).val < 2048 := (i 1).isLt
  obtain ⟨t, ht⟩ := index_onto ⟨(i 0).val / 256, by omega⟩ ⟨(i 1).val / 256, by omega⟩
  have q0 : win5_2.index t (0 : Fin 2) = (i 0).val / 256 := congrFun ht 0
  have q1 : win5_2.index t (1 : Fin 2) = (i 1).val / 256 := congrFun ht 1
  refine ⟨t, flush5_2 t, ?_⟩
  rw [mem_tile]
  intro a
  match a with
  | ⟨0, _⟩ => show win5_2.index t (0 : Fin 2) * 256 ≤ (i 0).val ∧ (i 0).val < win5_2.index t (0 : Fin 2) * 256 + 256; omega
  | ⟨1, _⟩ => show win5_2.index t (1 : Fin 2) * 256 ≤ (i 1).val ∧ (i 1).val < win5_2.index t (1 : Fin 2) * 256 + 256; omega

/-- The result array after the launch is the product of the two arrays as the launch found them. -/
theorem result (c : Dev nD) : (dat5 V c).arrAt 2 cfg5.N = mm (lhs V c) (rhs V c) :=
  (dat5 V c).arrAt_eq_of_cover 2 (mm (lhs V c) (rhs V c)) (fun t _ => flushed_eq V c t) covered

end Cert.KernelIdeal.Region5

end
-- ==== Proof.Region6.lean ====
/-
  A launch that multiplies two [2048, 2048] arrays, tile by tile on an 8 × 8 grid. Point (i, j)
  reads the row band i of the left array (256 rows, all 2048 columns) and the column band j of the right array
  (all 2048 rows, 256 columns), multiplies them on the matrix unit into a zero accumulator and writes the
  [256, 256] tile (i, j) of the result. Every entry's sum runs over the whole shared axis inside one point, so
  the tile a point writes is the tile of the whole product, the 64 tiles cover the result, and the result array
  ends holding the product of the two arrays as the launch found them.
-/
import proofs.«137536_j69630009803034_1_alg».proof.Proof.Gen.KernelIdeal.Frame
import proofs.«137536_j69630009803034_1_alg».proof.Proof.LibMatProduct
import Idealize.ShloMosaic.Lib.Pipeline.Value

set_option maxRecDepth 16384

noncomputable section

namespace Cert.KernelIdeal.Region6

open Idealize.ShloMosaic Idealize.ShloMosaic.TcCoe Idealize.ShloMosaic.ValueIdx Idealize.ShloMosaic.PlainDot
open Idealize.SL.Sem
open Cert.KernelIdeal Cert.KernelIdeal.Gen Cert.MatProduct

variable (V : (c : Dev nD) → (b : Ref sig .tc) → Buf (Elt Ideal) ((c : Thread nD τ).loc b))

/-- The left array as the launch finds it. -/
abbrev lhs (c : Dev nD) : Vec Ideal S2048x2048 .f32 := V c main_v11
/-- The right array as the launch finds it. -/
abbrev rhs (c : Dev nD) : Vec Ideal S2048x2048 .f32 := V c main_v19

theorem zeros : (![0, 0] : Fin 2 → Nat) = fun _ => 0 := funext fun a => by fin_cases a <;> rfl

theorem plain : IsPlain (dot_S256x2048_S2048x256_S256x256_1_0_0_1_n_n) := ⟨rfl, rfl, rfl, rfl, rfl, rfl⟩

/-- The body's payload is the product of its two loaded bands. -/
theorem payload_eq (x0 : Vec Ideal S256x2048 .f32) (x1 : Vec Ideal S2048x256 .f32) : k6_pay1 x0 x1 = mm x0 x1 := by
  unfold k6_pay1
  simp only [shapeCast_self]
  exact matmul_zero_eq_mm plain _ x0 x1

/-- The index maps over the grid: the left window moves with the tile's row and stays at column block 0, the right
    window stays at row block 0 and moves with the tile's column, and a tile's block indices are below 8. -/
theorem index_facts : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = win6_2.index t (1 : Fin 2)
    ∧ win6_2.index t (0 : Fin 2) ≤ 7 ∧ win6_2.index t (1 : Fin 2) ≤ 7 :=
  (by decide +kernel : ∀ t : Fin grid6.N, _)

/-- Every tile is some point's. -/
theorem index_onto : ∀ (q0 : Fin 8) (q1 : Fin 8), ∃ t : Fin cfg6.N, win6_2.index t = ![q0.val, q1.val] :=
  (by decide +kernel : ∀ (q0 : Fin 8) (q1 : Fin 8), ∃ t : Fin grid6.N, win6_2.index t = ![q0.val, q1.val])

/-- What point `t` writes back is tile `t` of the product of the two arrays. -/
theorem flushed_eq (c : Dev nD) (t : Fin cfg6.N) :
    (dat6 V c).flushed 2 t = ((cfg6.win 2).blk t).view.read (Elt Ideal) (mm (lhs V c) (rhs V c)) := by
  show (cfg6.win 2).cut (grid6.coords t) ((dat6 V c).after 2 t) = _
  rw [after6_2]
  unfold out6_2
  rw [View.canon_unit_zero zeros]
  simp only [View.ld_unit_zero (S := S256x2048) zeros, View.ld_unit_zero (S := S2048x256) zeros]
  rw [payload_eq]
  obtain ⟨e0, e1, e2, e3, e4, e5⟩ := index_facts t
  funext j
  obtain ⟨p, q, rfl⟩ : ∃ (p : Fin 256) (q : Fin 256), j = ix2 p q := ⟨j 0, j 1, eq_ix2 j⟩
  show mm (iblk6 V c 0 t) (iblk6 V c 1 t) (ix2 p q) = mm (lhs V c) (rhs V c) (((cfg6.win 2).blk t).view.emb (ix2 p q))
  refine (mm_tile (lhs V c) (rhs V c) (iblk6 V c 0 t) (iblk6 V c 1 t)
    (fun y => ⟨win6_2.index t (0 : Fin 2) * 256 + y.val, by have := y.isLt; omega⟩)
    (fun y => ⟨win6_2.index t (1 : Fin 2) * 256 + y.val, by have := y.isLt; omega⟩) ?_ ?_ p q).trans ?_
  · intro y k
    show V c main_v11 (((cfg6.win 0).blk t).view.emb (ix2 y k)) = V c main_v11 (ix2 _ k)
    refine congrArg _ (funext fun a => Fin.ext ?_)
    match a with
    | ⟨0, _⟩ => show win6_0.index t (0 : Fin 2) * 256 + 1 * y.val = win6_2.index t (0 : Fin 2) * 256 + y.val; omega
    | ⟨1, _⟩ => show win6_0.index t (1 : Fin 2) * 2048 + 1 * k.val = k.val; omega
  · intro k y
    show V c main_v19 (((cfg6.win 1).blk t).view.emb (ix2 k y)) = V c main_v19 (ix2 k _)
    refine congrArg _ (funext fun a => Fin.ext ?_)
    match a with
    | ⟨0, _⟩ => show win6_1.index t (0 : Fin 2) * 2048 + 1 * k.val = k.val; omega
    | ⟨1, _⟩ => show win6_1.index t (1 : Fin 2) * 256 + 1 * y.val = win6_2.index t (1 : Fin 2) * 256 + y.val; omega
  · refine congrArg _ (funext fun a => Fin.ext ?_)
    match a with
    | ⟨0, _⟩ => show win6_2.index t (0 : Fin 2) * 256 + p.val = win6_2.index t (0 : Fin 2) * 256 + 1 * p.val; omega
    | ⟨1, _⟩ => show win6_2.index t (1 : Fin 2) * 256 + q.val = win6_2.index t (1 : Fin 2) * 256 + 1 * q.val; omega

/-- An index of the result is in point `t`'s tile iff each coordinate is in the tile's range on its axis. -/
theorem mem_tile (t : Fin cfg6.N) (i : S2048x2048.Idx) :
    i ∈ ((cfg6.win 2).blk t).view.set ↔ ∀ a : Fin 2, win6_2.index t a * S256x256.size a ≤ (i a).val ∧ (i a).val < win6_2.index t a * S256x256.size a + S256x256.size a := by
  show i ∈ ((View.whole main_v20).slice (win6_2.rect t)).set ↔ _
  rw [View.set_slice_whole, Rect.mem_set_unit]
  exact Iff.rfl

/-- The 64 tiles cover the result. -/
theorem covered (i : S2048x2048.Idx) : ∃ t : Fin cfg6.N, (cfg6.win 2).flush t = true ∧ i ∈ ((cfg6.win 2).blk t).view.set := by
  have hi0 : (i 0).val < 2048 := (i 0).isLt
  have hi1 : (i 1).val < 2048 := (i 1).isLt
  obtain ⟨t, ht⟩ := index_onto ⟨(i 0).val / 256, by omega⟩ ⟨(i 1).val / 256, by omega⟩
  have q0 : win6_2.index t (0 : Fin 2) = (i 0).val / 256 := congrFun ht 0
  have q1 : win6_2.index t (1 : Fin 2) = (i 1).val / 256 := congrFun ht 1
  refine ⟨t, flush6_2 t, ?_⟩
  rw [mem_tile]
  intro a
  match a with
  | ⟨0, _⟩ => show win6_2.index t (0 : Fin 2) * 256 ≤ (i 0).val ∧ (i 0).val < win6_2.index t (0 : Fin 2) * 256 + 256; omega
  | ⟨1, _⟩ => show win6_2.index t (1 : Fin 2) * 256 ≤ (i 1).val ∧ (i 1).val < win6_2.index t (1 : Fin 2) * 256 + 256; omega

/-- The result array after the launch is the product of the two arrays as the launch found them. -/
theorem result (c : Dev nD) : (dat6 V c).arrAt 2 cfg6.N = mm (lhs V c) (rhs V c) :=
  (dat6 V c).arrAt_eq_of_cover 2 (mm (lhs V c) (rhs V c)) (fun t _ => flushed_eq V c t) covered

end Cert.KernelIdeal.Region6

end
-- ==== Proof.Region7.lean ====
/-
  A launch that multiplies two [2048, 2048] arrays, tile by tile on an 8 × 8 grid. Point (i, j)
  reads the row band i of the left array (256 rows, all 2048 columns) and the column band j of the right array
  (all 2048 rows, 256 columns), multiplies them on the matrix unit into a zero accumulator and writes the
  [256, 256] tile (i, j) of the result. Every entry's sum runs over the whole shared axis inside one point, so
  the tile a point writes is the tile of the whole product, the 64 tiles cover the result, and the result array
  ends holding the product of the two arrays as the launch found them.
-/
import proofs.«137536_j69630009803034_1_alg».proof.Proof.Gen.KernelIdeal.Frame
import proofs.«137536_j69630009803034_1_alg».proof.Proof.LibMatProduct
import Idealize.ShloMosaic.Lib.Pipeline.Value

set_option maxRecDepth 16384

noncomputable section

namespace Cert.KernelIdeal.Region7

open Idealize.ShloMosaic Idealize.ShloMosaic.TcCoe Idealize.ShloMosaic.ValueIdx Idealize.ShloMosaic.PlainDot
open Idealize.SL.Sem
open Cert.KernelIdeal Cert.KernelIdeal.Gen Cert.MatProduct

variable (V : (c : Dev nD) → (b : Ref sig .tc) → Buf (Elt Ideal) ((c : Thread nD τ).loc b))

/-- The left array as the launch finds it. -/
abbrev lhs (c : Dev nD) : Vec Ideal S2048x2048 .f32 := V c main_v19
/-- The right array as the launch finds it. -/
abbrev rhs (c : Dev nD) : Vec Ideal S2048x2048 .f32 := V c main_v21

theorem zeros : (![0, 0] : Fin 2 → Nat) = fun _ => 0 := funext fun a => by fin_cases a <;> rfl

theorem plain : IsPlain (dot_S256x2048_S2048x256_S256x256_1_0_0_1_n_n) := ⟨rfl, rfl, rfl, rfl, rfl, rfl⟩

/-- The body's payload is the product of its two loaded bands. -/
theorem payload_eq (x0 : Vec Ideal S256x2048 .f32) (x1 : Vec Ideal S2048x256 .f32) : k7_pay1 x0 x1 = mm x0 x1 := by
  unfold k7_pay1
  simp only [shapeCast_self]
  exact matmul_zero_eq_mm plain _ x0 x1

/-- The index maps over the grid: the left window moves with the tile's row and stays at column block 0, the right
    window stays at row block 0 and moves with the tile's column, and a tile's block indices are below 8. -/
theorem index_facts : ∀ t : Fin cfg7.N, win7_0.index t (0 : Fin 2) = win7_2.index t (0 : Fin 2)
    ∧ win7_0.index t (1 : Fin 2) = 0
    ∧ win7_1.index t (0 : Fin 2) = 0
    ∧ win7_1.index t (1 : Fin 2) = win7_2.index t (1 : Fin 2)
    ∧ win7_2.index t (0 : Fin 2) ≤ 7 ∧ win7_2.index t (1 : Fin 2) ≤ 7 :=
  (by decide +kernel : ∀ t : Fin grid7.N, _)

/-- Every tile is some point's. -/
theorem index_onto : ∀ (q0 : Fin 8) (q1 : Fin 8), ∃ t : Fin cfg7.N, win7_2.index t = ![q0.val, q1.val] :=
  (by decide +kernel : ∀ (q0 : Fin 8) (q1 : Fin 8), ∃ t : Fin grid7.N, win7_2.index t = ![q0.val, q1.val])

/-- What point `t` writes back is tile `t` of the product of the two arrays. -/
theorem flushed_eq (c : Dev nD) (t : Fin cfg7.N) :
    (dat7 V c).flushed 2 t = ((cfg7.win 2).blk t).view.read (Elt Ideal) (mm (lhs V c) (rhs V c)) := by
  show (cfg7.win 2).cut (grid7.coords t) ((dat7 V c).after 2 t) = _
  rw [after7_2]
  unfold out7_2
  rw [View.canon_unit_zero zeros]
  simp only [View.ld_unit_zero (S := S256x2048) zeros, View.ld_unit_zero (S := S2048x256) zeros]
  rw [payload_eq]
  obtain ⟨e0, e1, e2, e3, e4, e5⟩ := index_facts t
  funext j
  obtain ⟨p, q, rfl⟩ : ∃ (p : Fin 256) (q : Fin 256), j = ix2 p q := ⟨j 0, j 1, eq_ix2 j⟩
  show mm (iblk7 V c 0 t) (iblk7 V c 1 t) (ix2 p q) = mm (lhs V c) (rhs V c) (((cfg7.win 2).blk t).view.emb (ix2 p q))
  refine (mm_tile (lhs V c) (rhs V c) (iblk7 V c 0 t) (iblk7 V c 1 t)
    (fun y => ⟨win7_2.index t (0 : Fin 2) * 256 + y.val, by have := y.isLt; omega⟩)
    (fun y => ⟨win7_2.index t (1 : Fin 2) * 256 + y.val, by have := y.isLt; omega⟩) ?_ ?_ p q).trans ?_
  · intro y k
    show V c main_v19 (((cfg7.win 0).blk t).view.emb (ix2 y k)) = V c main_v19 (ix2 _ k)
    refine congrArg _ (funext fun a => Fin.ext ?_)
    match a with
    | ⟨0, _⟩ => show win7_0.index t (0 : Fin 2) * 256 + 1 * y.val = win7_2.index t (0 : Fin 2) * 256 + y.val; omega
    | ⟨1, _⟩ => show win7_0.index t (1 : Fin 2) * 2048 + 1 * k.val = k.val; omega
  · intro k y
    show V c main_v21 (((cfg7.win 1).blk t).view.emb (ix2 k y)) = V c main_v21 (ix2 k _)
    refine congrArg _ (funext fun a => Fin.ext ?_)
    match a with
    | ⟨0, _⟩ => show win7_1.index t (0 : Fin 2) * 2048 + 1 * k.val = k.val; omega
    | ⟨1, _⟩ => show win7_1.index t (1 : Fin 2) * 256 + 1 * y.val = win7_2.index t (1 : Fin 2) * 256 + y.val; omega
  · refine congrArg _ (funext fun a => Fin.ext ?_)
    match a with
    | ⟨0, _⟩ => show win7_2.index t (0 : Fin 2) * 256 + p.val = win7_2.index t (0 : Fin 2) * 256 + 1 * p.val; omega
    | ⟨1, _⟩ => show win7_2.index t (1 : Fin 2) * 256 + q.val = win7_2.index t (1 : Fin 2) * 256 + 1 * q.val; omega

/-- An index of the result is in point `t`'s tile iff each coordinate is in the tile's range on its axis. -/
theorem mem_tile (t : Fin cfg7.N) (i : S2048x2048.Idx) :
    i ∈ ((cfg7.win 2).blk t).view.set ↔ ∀ a : Fin 2, win7_2.index t a * S256x256.size a ≤ (i a).val ∧ (i a).val < win7_2.index t a * S256x256.size a + S256x256.size a := by
  show i ∈ ((View.whole main_v22).slice (win7_2.rect t)).set ↔ _
  rw [View.set_slice_whole, Rect.mem_set_unit]
  exact Iff.rfl

/-- The 64 tiles cover the result. -/
theorem covered (i : S2048x2048.Idx) : ∃ t : Fin cfg7.N, (cfg7.win 2).flush t = true ∧ i ∈ ((cfg7.win 2).blk t).view.set := by
  have hi0 : (i 0).val < 2048 := (i 0).isLt
  have hi1 : (i 1).val < 2048 := (i 1).isLt
  obtain ⟨t, ht⟩ := index_onto ⟨(i 0).val / 256, by omega⟩ ⟨(i 1).val / 256, by omega⟩
  have q0 : win7_2.index t (0 : Fin 2) = (i 0).val / 256 := congrFun ht 0
  have q1 : win7_2.index t (1 : Fin 2) = (i 1).val / 256 := congrFun ht 1
  refine ⟨t, flush7_2 t, ?_⟩
  rw [mem_tile]
  intro a
  match a with
  | ⟨0, _⟩ => show win7_2.index t (0 : Fin 2) * 256 ≤ (i 0).val ∧ (i 0).val < win7_2.index t (0 : Fin 2) * 256 + 256; omega
  | ⟨1, _⟩ => show win7_2.index t (1 : Fin 2) * 256 ≤ (i 1).val ∧ (i 1).val < win7_2.index t (1 : Fin 2) * 256 + 256; omega

/-- The result array after the launch is the product of the two arrays as the launch found them. -/
theorem result (c : Dev nD) : (dat7 V c).arrAt 2 cfg7.N = mm (lhs V c) (rhs V c) :=
  (dat7 V c).arrAt_eq_of_cover 2 (mm (lhs V c) (rhs V c)) (fun t _ => flushed_eq V c t) covered

end Cert.KernelIdeal.Region7

end
-- ==== Proof.Region8.lean ====
/-
  A launch that multiplies two [2048, 2048] arrays, tile by tile on an 8 × 8 grid. Point (i, j)
  reads the row band i of the left array (256 rows, all 2048 columns) and the column band j of the right array
  (all 2048 rows, 256 columns), multiplies them on the matrix unit into a zero accumulator and writes the
  [256, 256] tile (i, j) of the result. Every entry's sum runs over the whole shared axis inside one point, so
  the tile a point writes is the tile of the whole product, the 64 tiles cover the result, and the result array
  ends holding the product of the two arrays as the launch found them.
-/
import proofs.«137536_j69630009803034_1_alg».proof.Proof.Gen.KernelIdeal.Frame
import proofs.«137536_j69630009803034_1_alg».proof.Proof.LibMatProduct
import Idealize.ShloMosaic.Lib.Pipeline.Value

set_option maxRecDepth 16384

noncomputable section

namespace Cert.KernelIdeal.Region8

open Idealize.ShloMosaic Idealize.ShloMosaic.TcCoe Idealize.ShloMosaic.ValueIdx Idealize.ShloMosaic.PlainDot
open Idealize.SL.Sem
open Cert.KernelIdeal Cert.KernelIdeal.Gen Cert.MatProduct

variable (V : (c : Dev nD) → (b : Ref sig .tc) → Buf (Elt Ideal) ((c : Thread nD τ).loc b))

/-- The left array as the launch finds it. -/
abbrev lhs (c : Dev nD) : Vec Ideal S2048x2048 .f32 := V c main_v11
/-- The right array as the launch finds it. -/
abbrev rhs (c : Dev nD) : Vec Ideal S2048x2048 .f32 := V c main_v22

theorem zeros : (![0, 0] : Fin 2 → Nat) = fun _ => 0 := funext fun a => by fin_cases a <;> rfl

theorem plain : IsPlain (dot_S256x2048_S2048x256_S256x256_1_0_0_1_n_n) := ⟨rfl, rfl, rfl, rfl, rfl, rfl⟩

/-- The body's payload is the product of its two loaded bands. -/
theorem payload_eq (x0 : Vec Ideal S256x2048 .f32) (x1 : Vec Ideal S2048x256 .f32) : k8_pay1 x0 x1 = mm x0 x1 := by
  unfold k8_pay1
  simp only [shapeCast_self]
  exact matmul_zero_eq_mm plain _ x0 x1

/-- The index maps over the grid: the left window moves with the tile's row and stays at column block 0, the right
    window stays at row block 0 and moves with the tile's column, and a tile's block indices are below 8. -/
theorem index_facts : ∀ t : Fin cfg8.N, win8_0.index t (0 : Fin 2) = win8_2.index t (0 : Fin 2)
    ∧ win8_0.index t (1 : Fin 2) = 0
    ∧ win8_1.index t (0 : Fin 2) = 0
    ∧ win8_1.index t (1 : Fin 2) = win8_2.index t (1 : Fin 2)
    ∧ win8_2.index t (0 : Fin 2) ≤ 7 ∧ win8_2.index t (1 : Fin 2) ≤ 7 :=
  (by decide +kernel : ∀ t : Fin grid8.N, _)

/-- Every tile is some point's. -/
theorem index_onto : ∀ (q0 : Fin 8) (q1 : Fin 8), ∃ t : Fin cfg8.N, win8_2.index t = ![q0.val, q1.val] :=
  (by decide +kernel : ∀ (q0 : Fin 8) (q1 : Fin 8), ∃ t : Fin grid8.N, win8_2.index t = ![q0.val, q1.val])

/-- What point `t` writes back is tile `t` of the product of the two arrays. -/
theorem flushed_eq (c : Dev nD) (t : Fin cfg8.N) :
    (dat8 V c).flushed 2 t = ((cfg8.win 2).blk t).view.read (Elt Ideal) (mm (lhs V c) (rhs V c)) := by
  show (cfg8.win 2).cut (grid8.coords t) ((dat8 V c).after 2 t) = _
  rw [after8_2]
  unfold out8_2
  rw [View.canon_unit_zero zeros]
  simp only [View.ld_unit_zero (S := S256x2048) zeros, View.ld_unit_zero (S := S2048x256) zeros]
  rw [payload_eq]
  obtain ⟨e0, e1, e2, e3, e4, e5⟩ := index_facts t
  funext j
  obtain ⟨p, q, rfl⟩ : ∃ (p : Fin 256) (q : Fin 256), j = ix2 p q := ⟨j 0, j 1, eq_ix2 j⟩
  show mm (iblk8 V c 0 t) (iblk8 V c 1 t) (ix2 p q) = mm (lhs V c) (rhs V c) (((cfg8.win 2).blk t).view.emb (ix2 p q))
  refine (mm_tile (lhs V c) (rhs V c) (iblk8 V c 0 t) (iblk8 V c 1 t)
    (fun y => ⟨win8_2.index t (0 : Fin 2) * 256 + y.val, by have := y.isLt; omega⟩)
    (fun y => ⟨win8_2.index t (1 : Fin 2) * 256 + y.val, by have := y.isLt; omega⟩) ?_ ?_ p q).trans ?_
  · intro y k
    show V c main_v11 (((cfg8.win 0).blk t).view.emb (ix2 y k)) = V c main_v11 (ix2 _ k)
    refine congrArg _ (funext fun a => Fin.ext ?_)
    match a with
    | ⟨0, _⟩ => show win8_0.index t (0 : Fin 2) * 256 + 1 * y.val = win8_2.index t (0 : Fin 2) * 256 + y.val; omega
    | ⟨1, _⟩ => show win8_0.index t (1 : Fin 2) * 2048 + 1 * k.val = k.val; omega
  · intro k y
    show V c main_v22 (((cfg8.win 1).blk t).view.emb (ix2 k y)) = V c main_v22 (ix2 k _)
    refine congrArg _ (funext fun a => Fin.ext ?_)
    match a with
    | ⟨0, _⟩ => show win8_1.index t (0 : Fin 2) * 2048 + 1 * k.val = k.val; omega
    | ⟨1, _⟩ => show win8_1.index t (1 : Fin 2) * 256 + 1 * y.val = win8_2.index t (1 : Fin 2) * 256 + y.val; omega
  · refine congrArg _ (funext fun a => Fin.ext ?_)
    match a with
    | ⟨0, _⟩ => show win8_2.index t (0 : Fin 2) * 256 + p.val = win8_2.index t (0 : Fin 2) * 256 + 1 * p.val; omega
    | ⟨1, _⟩ => show win8_2.index t (1 : Fin 2) * 256 + q.val = win8_2.index t (1 : Fin 2) * 256 + 1 * q.val; omega

/-- An index of the result is in point `t`'s tile iff each coordinate is in the tile's range on its axis. -/
theorem mem_tile (t : Fin cfg8.N) (i : S2048x2048.Idx) :
    i ∈ ((cfg8.win 2).blk t).view.set ↔ ∀ a : Fin 2, win8_2.index t a * S256x256.size a ≤ (i a).val ∧ (i a).val < win8_2.index t a * S256x256.size a + S256x256.size a := by
  show i ∈ ((View.whole main_v23).slice (win8_2.rect t)).set ↔ _
  rw [View.set_slice_whole, Rect.mem_set_unit]
  exact Iff.rfl

/-- The 64 tiles cover the result. -/
theorem covered (i : S2048x2048.Idx) : ∃ t : Fin cfg8.N, (cfg8.win 2).flush t = true ∧ i ∈ ((cfg8.win 2).blk t).view.set := by
  have hi0 : (i 0).val < 2048 := (i 0).isLt
  have hi1 : (i 1).val < 2048 := (i 1).isLt
  obtain ⟨t, ht⟩ := index_onto ⟨(i 0).val / 256, by omega⟩ ⟨(i 1).val / 256, by omega⟩
  have q0 : win8_2.index t (0 : Fin 2) = (i 0).val / 256 := congrFun ht 0
  have q1 : win8_2.index t (1 : Fin 2) = (i 1).val / 256 := congrFun ht 1
  refine ⟨t, flush8_2 t, ?_⟩
  rw [mem_tile]
  intro a
  match a with
  | ⟨0, _⟩ => show win8_2.index t (0 : Fin 2) * 256 ≤ (i 0).val ∧ (i 0).val < win8_2.index t (0 : Fin 2) * 256 + 256; omega
  | ⟨1, _⟩ => show win8_2.index t (1 : Fin 2) * 256 ≤ (i 1).val ∧ (i 1).val < win8_2.index t (1 : Fin 2) * 256 + 256; omega

/-- The result array after the launch is the product of the two arrays as the launch found them. -/
theorem result (c : Dev nD) : (dat8 V c).arrAt 2 cfg8.N = mm (lhs V c) (rhs V c) :=
  (dat8 V c).arrAt_eq_of_cover 2 (mm (lhs V c) (rhs V c)) (fun t _ => flushed_eq V c t) covered

end Cert.KernelIdeal.Region8

end
-- ==== Proof.Region9.lean ====
/-
  A launch that multiplies two [2048, 2048] arrays, tile by tile on an 8 × 8 grid. Point (i, j)
  reads the row band i of the left array (256 rows, all 2048 columns) and the column band j of the right array
  (all 2048 rows, 256 columns), multiplies them on the matrix unit into a zero accumulator and writes the
  [256, 256] tile (i, j) of the result. Every entry's sum runs over the whole shared axis inside one point, so
  the tile a point writes is the tile of the whole product, the 64 tiles cover the result, and the result array
  ends holding the product of the two arrays as the launch found them.
-/
import proofs.«137536_j69630009803034_1_alg».proof.Proof.Gen.KernelIdeal.Frame
import proofs.«137536_j69630009803034_1_alg».proof.Proof.LibMatProduct
import Idealize.ShloMosaic.Lib.Pipeline.Value

set_option maxRecDepth 16384

noncomputable section

namespace Cert.KernelIdeal.Region9

open Idealize.ShloMosaic Idealize.ShloMosaic.TcCoe Idealize.ShloMosaic.ValueIdx Idealize.ShloMosaic.PlainDot
open Idealize.SL.Sem
open Cert.KernelIdeal Cert.KernelIdeal.Gen Cert.MatProduct

variable (V : (c : Dev nD) → (b : Ref sig .tc) → Buf (Elt Ideal) ((c : Thread nD τ).loc b))

/-- The left array as the launch finds it. -/
abbrev lhs (c : Dev nD) : Vec Ideal S2048x2048 .f32 := V c main_v22
/-- The right array as the launch finds it. -/
abbrev rhs (c : Dev nD) : Vec Ideal S2048x2048 .f32 := V c main_v24

theorem zeros : (![0, 0] : Fin 2 → Nat) = fun _ => 0 := funext fun a => by fin_cases a <;> rfl

theorem plain : IsPlain (dot_S256x2048_S2048x256_S256x256_1_0_0_1_n_n) := ⟨rfl, rfl, rfl, rfl, rfl, rfl⟩

/-- The body's payload is the product of its two loaded bands. -/
theorem payload_eq (x0 : Vec Ideal S256x2048 .f32) (x1 : Vec Ideal S2048x256 .f32) : k9_pay1 x0 x1 = mm x0 x1 := by
  unfold k9_pay1
  simp only [shapeCast_self]
  exact matmul_zero_eq_mm plain _ x0 x1

/-- The index maps over the grid: the left window moves with the tile's row and stays at column block 0, the right
    window stays at row block 0 and moves with the tile's column, and a tile's block indices are below 8. -/
theorem index_facts : ∀ t : Fin cfg9.N, win9_0.index t (0 : Fin 2) = win9_2.index t (0 : Fin 2)
    ∧ win9_0.index t (1 : Fin 2) = 0
    ∧ win9_1.index t (0 : Fin 2) = 0
    ∧ win9_1.index t (1 : Fin 2) = win9_2.index t (1 : Fin 2)
    ∧ win9_2.index t (0 : Fin 2) ≤ 7 ∧ win9_2.index t (1 : Fin 2) ≤ 7 :=
  (by decide +kernel : ∀ t : Fin grid9.N, _)

/-- Every tile is some point's. -/
theorem index_onto : ∀ (q0 : Fin 8) (q1 : Fin 8), ∃ t : Fin cfg9.N, win9_2.index t = ![q0.val, q1.val] :=
  (by decide +kernel : ∀ (q0 : Fin 8) (q1 : Fin 8), ∃ t : Fin grid9.N, win9_2.index t = ![q0.val, q1.val])

/-- What point `t` writes back is tile `t` of the product of the two arrays. -/
theorem flushed_eq (c : Dev nD) (t : Fin cfg9.N) :
    (dat9 V c).flushed 2 t = ((cfg9.win 2).blk t).view.read (Elt Ideal) (mm (lhs V c) (rhs V c)) := by
  show (cfg9.win 2).cut (grid9.coords t) ((dat9 V c).after 2 t) = _
  rw [after9_2]
  unfold out9_2
  rw [View.canon_unit_zero zeros]
  simp only [View.ld_unit_zero (S := S256x2048) zeros, View.ld_unit_zero (S := S2048x256) zeros]
  rw [payload_eq]
  obtain ⟨e0, e1, e2, e3, e4, e5⟩ := index_facts t
  funext j
  obtain ⟨p, q, rfl⟩ : ∃ (p : Fin 256) (q : Fin 256), j = ix2 p q := ⟨j 0, j 1, eq_ix2 j⟩
  show mm (iblk9 V c 0 t) (iblk9 V c 1 t) (ix2 p q) = mm (lhs V c) (rhs V c) (((cfg9.win 2).blk t).view.emb (ix2 p q))
  refine (mm_tile (lhs V c) (rhs V c) (iblk9 V c 0 t) (iblk9 V c 1 t)
    (fun y => ⟨win9_2.index t (0 : Fin 2) * 256 + y.val, by have := y.isLt; omega⟩)
    (fun y => ⟨win9_2.index t (1 : Fin 2) * 256 + y.val, by have := y.isLt; omega⟩) ?_ ?_ p q).trans ?_
  · intro y k
    show V c main_v22 (((cfg9.win 0).blk t).view.emb (ix2 y k)) = V c main_v22 (ix2 _ k)
    refine congrArg _ (funext fun a => Fin.ext ?_)
    match a with
    | ⟨0, _⟩ => show win9_0.index t (0 : Fin 2) * 256 + 1 * y.val = win9_2.index t (0 : Fin 2) * 256 + y.val; omega
    | ⟨1, _⟩ => show win9_0.index t (1 : Fin 2) * 2048 + 1 * k.val = k.val; omega
  · intro k y
    show V c main_v24 (((cfg9.win 1).blk t).view.emb (ix2 k y)) = V c main_v24 (ix2 k _)
    refine congrArg _ (funext fun a => Fin.ext ?_)
    match a with
    | ⟨0, _⟩ => show win9_1.index t (0 : Fin 2) * 2048 + 1 * k.val = k.val; omega
    | ⟨1, _⟩ => show win9_1.index t (1 : Fin 2) * 256 + 1 * y.val = win9_2.index t (1 : Fin 2) * 256 + y.val; omega
  · refine congrArg _ (funext fun a => Fin.ext ?_)
    match a with
    | ⟨0, _⟩ => show win9_2.index t (0 : Fin 2) * 256 + p.val = win9_2.index t (0 : Fin 2) * 256 + 1 * p.val; omega
    | ⟨1, _⟩ => show win9_2.index t (1 : Fin 2) * 256 + q.val = win9_2.index t (1 : Fin 2) * 256 + 1 * q.val; omega

/-- An index of the result is in point `t`'s tile iff each coordinate is in the tile's range on its axis. -/
theorem mem_tile (t : Fin cfg9.N) (i : S2048x2048.Idx) :
    i ∈ ((cfg9.win 2).blk t).view.set ↔ ∀ a : Fin 2, win9_2.index t a * S256x256.size a ≤ (i a).val ∧ (i a).val < win9_2.index t a * S256x256.size a + S256x256.size a := by
  show i ∈ ((View.whole main_v25).slice (win9_2.rect t)).set ↔ _
  rw [View.set_slice_whole, Rect.mem_set_unit]
  exact Iff.rfl

/-- The 64 tiles cover the result. -/
theorem covered (i : S2048x2048.Idx) : ∃ t : Fin cfg9.N, (cfg9.win 2).flush t = true ∧ i ∈ ((cfg9.win 2).blk t).view.set := by
  have hi0 : (i 0).val < 2048 := (i 0).isLt
  have hi1 : (i 1).val < 2048 := (i 1).isLt
  obtain ⟨t, ht⟩ := index_onto ⟨(i 0).val / 256, by omega⟩ ⟨(i 1).val / 256, by omega⟩
  have q0 : win9_2.index t (0 : Fin 2) = (i 0).val / 256 := congrFun ht 0
  have q1 : win9_2.index t (1 : Fin 2) = (i 1).val / 256 := congrFun ht 1
  refine ⟨t, flush9_2 t, ?_⟩
  rw [mem_tile]
  intro a
  match a with
  | ⟨0, _⟩ => show win9_2.index t (0 : Fin 2) * 256 ≤ (i 0).val ∧ (i 0).val < win9_2.index t (0 : Fin 2) * 256 + 256; omega
  | ⟨1, _⟩ => show win9_2.index t (1 : Fin 2) * 256 ≤ (i 1).val ∧ (i 1).val < win9_2.index t (1 : Fin 2) * 256 + 256; omega

/-- The result array after the launch is the product of the two arrays as the launch found them. -/
theorem result (c : Dev nD) : (dat9 V c).arrAt 2 cfg9.N = mm (lhs V c) (rhs V c) :=
  (dat9 V c).arrAt_eq_of_cover 2 (mm (lhs V c) (rhs V c)) (fun t _ => flushed_eq V c t) covered

end Cert.KernelIdeal.Region9

end
-- ==== Proof.Region10.lean ====
/-
  A launch that multiplies two [2048, 2048] arrays, tile by tile on an 8 × 8 grid. Point (i, j)
  reads the row band i of the left array (256 rows, all 2048 columns) and the column band j of the right array
  (all 2048 rows, 256 columns), multiplies them on the matrix unit into a zero accumulator and writes the
  [256, 256] tile (i, j) of the result. Every entry's sum runs over the whole shared axis inside one point, so
  the tile a point writes is the tile of the whole product, the 64 tiles cover the result, and the result array
  ends holding the product of the two arrays as the launch found them.
-/
import proofs.«137536_j69630009803034_1_alg».proof.Proof.Gen.KernelIdeal.Frame
import proofs.«137536_j69630009803034_1_alg».proof.Proof.LibMatProduct
import Idealize.ShloMosaic.Lib.Pipeline.Value

set_option maxRecDepth 16384

noncomputable section

namespace Cert.KernelIdeal.Region10

open Idealize.ShloMosaic Idealize.ShloMosaic.TcCoe Idealize.ShloMosaic.ValueIdx Idealize.ShloMosaic.PlainDot
open Idealize.SL.Sem
open Cert.KernelIdeal Cert.KernelIdeal.Gen Cert.MatProduct

variable (V : (c : Dev nD) → (b : Ref sig .tc) → Buf (Elt Ideal) ((c : Thread nD τ).loc b))

/-- The left array as the launch finds it. -/
abbrev lhs (c : Dev nD) : Vec Ideal S2048x2048 .f32 := V c main_v26
/-- The right array as the launch finds it. -/
abbrev rhs (c : Dev nD) : Vec Ideal S2048x2048 .f32 := V c main_v25

theorem zeros : (![0, 0] : Fin 2 → Nat) = fun _ => 0 := funext fun a => by fin_cases a <;> rfl

theorem plain : IsPlain (dot_S256x2048_S2048x256_S256x256_1_0_0_1_n_n) := ⟨rfl, rfl, rfl, rfl, rfl, rfl⟩

/-- The body's payload is the product of its two loaded bands. -/
theorem payload_eq (x0 : Vec Ideal S256x2048 .f32) (x1 : Vec Ideal S2048x256 .f32) : k10_pay1 x0 x1 = mm x0 x1 := by
  unfold k10_pay1
  simp only [shapeCast_self]
  exact matmul_zero_eq_mm plain _ x0 x1

/-- The index maps over the grid: the left window moves with the tile's row and stays at column block 0, the right
    window stays at row block 0 and moves with the tile's column, and a tile's block indices are below 8. -/
theorem index_facts : ∀ t : Fin cfg10.N, win10_0.index t (0 : Fin 2) = win10_2.index t (0 : Fin 2)
    ∧ win10_0.index t (1 : Fin 2) = 0
    ∧ win10_1.index t (0 : Fin 2) = 0
    ∧ win10_1.index t (1 : Fin 2) = win10_2.index t (1 : Fin 2)
    ∧ win10_2.index t (0 : Fin 2) ≤ 7 ∧ win10_2.index t (1 : Fin 2) ≤ 7 :=
  (by decide +kernel : ∀ t : Fin grid10.N, _)

/-- Every tile is some point's. -/
theorem index_onto : ∀ (q0 : Fin 8) (q1 : Fin 8), ∃ t : Fin cfg10.N, win10_2.index t = ![q0.val, q1.val] :=
  (by decide +kernel : ∀ (q0 : Fin 8) (q1 : Fin 8), ∃ t : Fin grid10.N, win10_2.index t = ![q0.val, q1.val])

/-- What point `t` writes back is tile `t` of the product of the two arrays. -/
theorem flushed_eq (c : Dev nD) (t : Fin cfg10.N) :
    (dat10 V c).flushed 2 t = ((cfg10.win 2).blk t).view.read (Elt Ideal) (mm (lhs V c) (rhs V c)) := by
  show (cfg10.win 2).cut (grid10.coords t) ((dat10 V c).after 2 t) = _
  rw [after10_2]
  unfold out10_2
  rw [View.canon_unit_zero zeros]
  simp only [View.ld_unit_zero (S := S256x2048) zeros, View.ld_unit_zero (S := S2048x256) zeros]
  rw [payload_eq]
  obtain ⟨e0, e1, e2, e3, e4, e5⟩ := index_facts t
  funext j
  obtain ⟨p, q, rfl⟩ : ∃ (p : Fin 256) (q : Fin 256), j = ix2 p q := ⟨j 0, j 1, eq_ix2 j⟩
  show mm (iblk10 V c 0 t) (iblk10 V c 1 t) (ix2 p q) = mm (lhs V c) (rhs V c) (((cfg10.win 2).blk t).view.emb (ix2 p q))
  refine (mm_tile (lhs V c) (rhs V c) (iblk10 V c 0 t) (iblk10 V c 1 t)
    (fun y => ⟨win10_2.index t (0 : Fin 2) * 256 + y.val, by have := y.isLt; omega⟩)
    (fun y => ⟨win10_2.index t (1 : Fin 2) * 256 + y.val, by have := y.isLt; omega⟩) ?_ ?_ p q).trans ?_
  · intro y k
    show V c main_v26 (((cfg10.win 0).blk t).view.emb (ix2 y k)) = V c main_v26 (ix2 _ k)
    refine congrArg _ (funext fun a => Fin.ext ?_)
    match a with
    | ⟨0, _⟩ => show win10_0.index t (0 : Fin 2) * 256 + 1 * y.val = win10_2.index t (0 : Fin 2) * 256 + y.val; omega
    | ⟨1, _⟩ => show win10_0.index t (1 : Fin 2) * 2048 + 1 * k.val = k.val; omega
  · intro k y
    show V c main_v25 (((cfg10.win 1).blk t).view.emb (ix2 k y)) = V c main_v25 (ix2 k _)
    refine congrArg _ (funext fun a => Fin.ext ?_)
    match a with
    | ⟨0, _⟩ => show win10_1.index t (0 : Fin 2) * 2048 + 1 * k.val = k.val; omega
    | ⟨1, _⟩ => show win10_1.index t (1 : Fin 2) * 256 + 1 * y.val = win10_2.index t (1 : Fin 2) * 256 + y.val; omega
  · refine congrArg _ (funext fun a => Fin.ext ?_)
    match a with
    | ⟨0, _⟩ => show win10_2.index t (0 : Fin 2) * 256 + p.val = win10_2.index t (0 : Fin 2) * 256 + 1 * p.val; omega
    | ⟨1, _⟩ => show win10_2.index t (1 : Fin 2) * 256 + q.val = win10_2.index t (1 : Fin 2) * 256 + 1 * q.val; omega

/-- An index of the result is in point `t`'s tile iff each coordinate is in the tile's range on its axis. -/
theorem mem_tile (t : Fin cfg10.N) (i : S2048x2048.Idx) :
    i ∈ ((cfg10.win 2).blk t).view.set ↔ ∀ a : Fin 2, win10_2.index t a * S256x256.size a ≤ (i a).val ∧ (i a).val < win10_2.index t a * S256x256.size a + S256x256.size a := by
  show i ∈ ((View.whole main_v27).slice (win10_2.rect t)).set ↔ _
  rw [View.set_slice_whole, Rect.mem_set_unit]
  exact Iff.rfl

/-- The 64 tiles cover the result. -/
theorem covered (i : S2048x2048.Idx) : ∃ t : Fin cfg10.N, (cfg10.win 2).flush t = true ∧ i ∈ ((cfg10.win 2).blk t).view.set := by
  have hi0 : (i 0).val < 2048 := (i 0).isLt
  have hi1 : (i 1).val < 2048 := (i 1).isLt
  obtain ⟨t, ht⟩ := index_onto ⟨(i 0).val / 256, by omega⟩ ⟨(i 1).val / 256, by omega⟩
  have q0 : win10_2.index t (0 : Fin 2) = (i 0).val / 256 := congrFun ht 0
  have q1 : win10_2.index t (1 : Fin 2) = (i 1).val / 256 := congrFun ht 1
  refine ⟨t, flush10_2 t, ?_⟩
  rw [mem_tile]
  intro a
  match a with
  | ⟨0, _⟩ => show win10_2.index t (0 : Fin 2) * 256 ≤ (i 0).val ∧ (i 0).val < win10_2.index t (0 : Fin 2) * 256 + 256; omega
  | ⟨1, _⟩ => show win10_2.index t (1 : Fin 2) * 256 ≤ (i 1).val ∧ (i 1).val < win10_2.index t (1 : Fin 2) * 256 + 256; omega

/-- The result array after the launch is the product of the two arrays as the launch found them. -/
theorem result (c : Dev nD) : (dat10 V c).arrAt 2 cfg10.N = mm (lhs V c) (rhs V c) :=
  (dat10 V c).arrAt_eq_of_cover 2 (mm (lhs V c) (rhs V c)) (fun t _ => flushed_eq V c t) covered

end Cert.KernelIdeal.Region10

end
-- ==== Proof.Region11.lean ====
/-
  The last launch: the product of a [16384, 2048] array with a [2048, 2048] array, one row band per point of a
  grid of 32. Point i reads the row band i of the left array (512 rows, all 2048 columns) and the whole right
  array, multiplies them on the matrix unit into a zero accumulator and writes the row band i of the result
  ([512, 2048]). Every entry's sum runs over the whole shared axis inside one point, so the band a point writes is
  the band of the whole product, the 32 bands cover the result, and the result array ends holding the product of
  the two arrays as the launch found them. (The operands are stored in a narrower float format; on the extended
  reals a change of format is the identity, so the entries are the same numbers.)
-/
import proofs.«137536_j69630009803034_1_alg».proof.Proof.Gen.KernelIdeal.Frame
import proofs.«137536_j69630009803034_1_alg».proof.Proof.LibMatProduct
import Idealize.ShloMosaic.Lib.Pipeline.Value

set_option maxRecDepth 16384

noncomputable section

namespace Cert.KernelIdeal.Region11

open Idealize.ShloMosaic Idealize.ShloMosaic.TcCoe Idealize.ShloMosaic.ValueIdx Idealize.ShloMosaic.PlainDot
open Idealize.SL.Sem
open Cert.KernelIdeal Cert.KernelIdeal.Gen Cert.MatProduct

variable (V : (c : Dev nD) → (b : Ref sig .tc) → Buf (Elt Ideal) ((c : Thread nD τ).loc b))

/-- The left array as the launch finds it. -/
abbrev lhs (c : Dev nD) : Vec Ideal S16384x2048 .bf16 := V c main_v31
/-- The right array as the launch finds it. -/
abbrev rhs (c : Dev nD) : Vec Ideal S2048x2048 .bf16 := V c main_v29

theorem zeros : (![0, 0] : Fin 2 → Nat) = fun _ => 0 := funext fun a => by fin_cases a <;> rfl

theorem plain : IsPlain (dot_S512x2048_S2048x2048_S512x2048_1_0_0_1_n_n) := ⟨rfl, rfl, rfl, rfl, rfl, rfl⟩

/-- The body's payload is the product of its loaded band with the loaded right array. -/
theorem payload_eq (x0 : Vec Ideal S512x2048 .bf16) (x1 : Vec Ideal S2048x2048 .bf16) : k11_pay1 x0 x1 = mm x0 x1 := by
  unfold k11_pay1
  simp only [shapeCast_self]
  exact matmul_zero_eq_mm plain _ x0 x1

/-- The index maps over the grid: the left window moves with the band and stays at column block 0, the right
    window stays at block (0, 0), and a band's block index is below 32 with column block 0. -/
theorem index_facts : ∀ t : Fin cfg11.N, win11_0.index t (0 : Fin 2) = win11_2.index t (0 : Fin 2)
    ∧ win11_0.index t (1 : Fin 2) = 0
    ∧ win11_1.index t (0 : Fin 2) = 0
    ∧ win11_1.index t (1 : Fin 2) = 0
    ∧ win11_2.index t (0 : Fin 2) ≤ 31 ∧ win11_2.index t (1 : Fin 2) = 0 :=
  (by decide +kernel : ∀ t : Fin grid11.N, _)

/-- Every band is some point's. -/
theorem index_onto : ∀ (q0 : Fin 32), ∃ t : Fin cfg11.N, win11_2.index t = ![q0.val, 0] :=
  (by decide +kernel : ∀ (q0 : Fin 32), ∃ t : Fin grid11.N, win11_2.index t = ![q0.val, 0])

/-- What point `t` writes back is band `t` of the product of the two arrays. -/
theorem flushed_eq (c : Dev nD) (t : Fin cfg11.N) :
    (dat11 V c).flushed 2 t = ((cfg11.win 2).blk t).view.read (Elt Ideal) (mm (lhs V c) (rhs V c)) := by
  show (cfg11.win 2).cut (grid11.coords t) ((dat11 V c).after 2 t) = _
  rw [after11_2]
  unfold out11_2
  rw [View.canon_unit_zero zeros]
  simp only [View.ld_unit_zero (S := S512x2048) zeros, View.ld_unit_zero (S := S2048x2048) zeros]
  rw [payload_eq]
  obtain ⟨e0, e1, e2, e3, e4, e5⟩ := index_facts t
  funext j
  obtain ⟨p, q, rfl⟩ : ∃ (p : Fin 512) (q : Fin 2048), j = ix2 p q := ⟨j 0, j 1, eq_ix2 j⟩
  show mm (iblk11 V c 0 t) (iblk11 V c 1 t) (ix2 p q) = mm (lhs V c) (rhs V c) (((cfg11.win 2).blk t).view.emb (ix2 p q))
  refine (mm_tile (lhs V c) (rhs V c) (iblk11 V c 0 t) (iblk11 V c 1 t)
    (fun y => ⟨win11_2.index t (0 : Fin 2) * 512 + y.val, by have := y.isLt; omega⟩)
    (fun y => y) ?_ ?_ p q).trans ?_
  · intro y k
    show V c main_v31 (((cfg11.win 0).blk t).view.emb (ix2 y k)) = V c main_v31 (ix2 _ k)
    refine congrArg _ (funext fun a => Fin.ext ?_)
    match a with
    | ⟨0, _⟩ => show win11_0.index t (0 : Fin 2) * 512 + 1 * y.val = win11_2.index t (0 : Fin 2) * 512 + y.val; omega
    | ⟨1, _⟩ => show win11_0.index t (1 : Fin 2) * 2048 + 1 * k.val = k.val; omega
  · intro k y
    show V c main_v29 (((cfg11.win 1).blk t).view.emb (ix2 k y)) = V c main_v29 (ix2 k y)
    refine congrArg _ (funext fun a => Fin.ext ?_)
    match a with
    | ⟨0, _⟩ => show win11_1.index t (0 : Fin 2) * 2048 + 1 * k.val = k.val; omega
    | ⟨1, _⟩ => show win11_1.index t (1 : Fin 2) * 2048 + 1 * y.val = y.val; omega
  · refine congrArg _ (funext fun a => Fin.ext ?_)
    match a with
    | ⟨0, _⟩ => show win11_2.index t (0 : Fin 2) * 512 + p.val = win11_2.index t (0 : Fin 2) * 512 + 1 * p.val; omega
    | ⟨1, _⟩ => show q.val = win11_2.index t (1 : Fin 2) * 2048 + 1 * q.val; omega

/-- An index of the result is in point `t`'s band iff each coordinate is in the band's range on its axis. -/
theorem mem_tile (t : Fin cfg11.N) (i : S16384x2048.Idx) :
    i ∈ ((cfg11.win 2).blk t).view.set ↔ ∀ a : Fin 2, win11_2.index t a * S512x2048.size a ≤ (i a).val ∧ (i a).val < win11_2.index t a * S512x2048.size a + S512x2048.size a := by
  show i ∈ ((View.whole main_v32).slice (win11_2.rect t)).set ↔ _
  rw [View.set_slice_whole, Rect.mem_set_unit]
  exact Iff.rfl

/-- The 32 bands cover the result. -/
theorem covered (i : S16384x2048.Idx) : ∃ t : Fin cfg11.N, (cfg11.win 2).flush t = true ∧ i ∈ ((cfg11.win 2).blk t).view.set := by
  have hi0 : (i 0).val < 16384 := (i 0).isLt
  have hi1 : (i 1).val < 2048 := (i 1).isLt
  obtain ⟨t, ht⟩ := index_onto ⟨(i 0).val / 512, by omega⟩
  have q0 : win11_2.index t (0 : Fin 2) = (i 0).val / 512 := congrFun ht 0
  have q1 : win11_2.index t (1 : Fin 2) = 0 := congrFun ht 1
  refine ⟨t, flush11_2 t, ?_⟩
  rw [mem_tile]
  intro a
  match a with
  | ⟨0, _⟩ => show win11_2.index t (0 : Fin 2) * 512 ≤ (i 0).val ∧ (i 0).val < win11_2.index t (0 : Fin 2) * 512 + 512; omega
  | ⟨1, _⟩ => show win11_2.index t (1 : Fin 2) * 2048 ≤ (i 1).val ∧ (i 1).val < win11_2.index t (1 : Fin 2) * 2048 + 2048; omega

/-- The result array after the launch is the product of the two arrays as the launch found them. -/
theorem result (c : Dev nD) : (dat11 V c).arrAt 2 cfg11.N = mm (lhs V c) (rhs V c) :=
  (dat11 V c).arrAt_eq_of_cover 2 (mm (lhs V c) (rhs V c)) (fun t _ => flushed_eq V c t) covered

end Cert.KernelIdeal.Region11

end
-- ==== Proof.FoldSteps.lean ====
/-
  The launches of @main, one at a time, as steps between the buffer contents at the boundary a launch is entered
  from and the boundary it is left at: a buffer that is none of the launch's three arrays keeps its contents; the two
  operand arrays keep theirs (an input window is fetched, never written back); the result array ends holding the
  product of the two operand arrays as the launch found them (the launch's own module). The buffer on each left-hand
  side is marked so that a simplifier finds the statement by the boundary alone and then compares the buffers.
-/
import proofs.«137536_j69630009803034_1_alg».proof.Proof.Region0
import proofs.«137536_j69630009803034_1_alg».proof.Proof.Region1
import proofs.«137536_j69630009803034_1_alg».proof.Proof.Region2
import proofs.«137536_j69630009803034_1_alg».proof.Proof.Region3
import proofs.«137536_j69630009803034_1_alg».proof.Proof.Region4
import proofs.«137536_j69630009803034_1_alg».proof.Proof.Region5
import proofs.«137536_j69630009803034_1_alg».proof.Proof.Region6
import proofs.«137536_j69630009803034_1_alg».proof.Proof.Region7
import proofs.«137536_j69630009803034_1_alg».proof.Proof.Region8
import proofs.«137536_j69630009803034_1_alg».proof.Proof.Region9
import proofs.«137536_j69630009803034_1_alg».proof.Proof.Region10
import proofs.«137536_j69630009803034_1_alg».proof.Proof.Region11

set_option maxRecDepth 16384

noncomputable section

namespace Cert.KernelIdeal.FoldSteps

open Idealize.ShloMosaic Idealize.ShloMosaic.TcCoe Idealize.SL.Sem
open Cert.KernelIdeal Cert.KernelIdeal.Gen Cert.MatProduct

variable (m : (ℓ : Loc nD τ sig) → Buf (Elt Ideal) ℓ) (ρ : Dev nD → PrngReg) (c : Dev nD)

/-! ## Launch 0: entered from boundary 1, left at boundary 2 -/

theorem other0 {b : Ref sig .tc} (hb : ∀ w, Pipeline.arrRef spec0 w ≠ b) :
    W2 m ρ c (no_index (Proc.devRef .tc b)) = W1 m ρ c (Proc.devRef .tc b) := W2_of_ne m ρ c b hb
theorem left0 : W2 m ρ c (no_index (Proc.devRef .tc main_arg1)) = W1 m ρ c (Proc.devRef .tc main_arg1) :=
  (W2_arr m ρ c 0).trans (((dat0 (V1 m ρ) c).arrAt_in 0 rfl _).trans (A_eq0 (V1 m ρ) c 0))
theorem right0 : W2 m ρ c (no_index (Proc.devRef .tc main_v6)) = W1 m ρ c (Proc.devRef .tc main_v6) :=
  (W2_arr m ρ c 1).trans (((dat0 (V1 m ρ) c).arrAt_in 1 rfl _).trans (A_eq0 (V1 m ρ) c 1))
theorem product0 : W2 m ρ c (no_index (Proc.devRef .tc main_v7)) =
    mm (M := 2048) (K := 64) (N := 2048) (W1 m ρ c (Proc.devRef .tc main_arg1)) (W1 m ρ c (Proc.devRef .tc main_v6)) :=
  (W2_arr m ρ c 2).trans (Region0.result (V1 m ρ) c)

/-! ## Launch 1: entered from boundary 3, left at boundary 4 -/

theorem other1 {b : Ref sig .tc} (hb : ∀ w, Pipeline.arrRef spec1 w ≠ b) :
    W4 m ρ c (no_index (Proc.devRef .tc b)) = W3 m ρ c (Proc.devRef .tc b) := W4_of_ne m ρ c b hb
theorem left1 : W4 m ρ c (no_index (Proc.devRef .tc main_arg2)) = W3 m ρ c (Proc.devRef .tc main_arg2) :=
  (W4_arr m ρ c 0).trans (((dat1 (V3 m ρ) c).arrAt_in 0 rfl _).trans (A_eq1 (V3 m ρ) c 0))
theorem right1 : W4 m ρ c (no_index (Proc.devRef .tc main_v8)) = W3 m ρ c (Proc.devRef .tc main_v8) :=
  (W4_arr m ρ c 1).trans (((dat1 (V3 m ρ) c).arrAt_in 1 rfl _).trans (A_eq1 (V3 m ρ) c 1))
theorem product1 : W4 m ρ c (no_index (Proc.devRef .tc main_v9)) =
    mm (M := 2048) (K := 64) (N := 2048) (W3 m ρ c (Proc.devRef .tc main_arg2)) (W3 m ρ c (Proc.devRef .tc main_v8)) :=
  (W4_arr m ρ c 2).trans (Region1.result (V3 m ρ) c)

/-! ## Launch 2: entered from boundary 5, left at boundary 6 -/

theorem other2 {b : Ref sig .tc} (hb : ∀ w, Pipeline.arrRef spec2 w ≠ b) :
    W6 m ρ c (no_index (Proc.devRef .tc b)) = W5 m ρ c (Proc.devRef .tc b) := W6_of_ne m ρ c b hb
theorem left2 : W6 m ρ c (no_index (Proc.devRef .tc main_v11)) = W5 m ρ c (Proc.devRef .tc main_v11) :=
  (W6_arr m ρ c 0).trans (((dat2 (V5 m ρ) c).arrAt_in 0 rfl _).trans (A_eq2 (V5 m ρ) c 0))
theorem right2 : W6 m ρ c (no_index (Proc.devRef .tc main_v5)) = W5 m ρ c (Proc.devRef .tc main_v5) :=
  (W6_arr m ρ c 1).trans (((dat2 (V5 m ρ) c).arrAt_in 1 rfl _).trans (A_eq2 (V5 m ρ) c 1))
theorem product2 : W6 m ρ c (no_index (Proc.devRef .tc main_v14)) =
    mm (M := 2048) (K := 2048) (N := 2048) (W5 m ρ c (Proc.devRef .tc main_v11)) (W5 m ρ c (Proc.devRef .tc main_v5)) :=
  (W6_arr m ρ c 2).trans (Region2.result (V5 m ρ) c)

/-! ## Launch 3: entered from boundary 7, left at boundary 8 -/

theorem other3 {b : Ref sig .tc} (hb : ∀ w, Pipeline.arrRef spec3 w ≠ b) :
    W8 m ρ c (no_index (Proc.devRef .tc b)) = W7 m ρ c (Proc.devRef .tc b) := W8_of_ne m ρ c b hb
theorem left3 : W8 m ρ c (no_index (Proc.devRef .tc main_v5)) = W7 m ρ c (Proc.devRef .tc main_v5) :=
  (W8_arr m ρ c 0).trans (((dat3 (V7 m ρ) c).arrAt_in 0 rfl _).trans (A_eq3 (V7 m ρ) c 0))
theorem right3 : W8 m ρ c (no_index (Proc.devRef .tc main_v15)) = W7 m ρ c (Proc.devRef .tc main_v15) :=
  (W8_arr m ρ c 1).trans (((dat3 (V7 m ρ) c).arrAt_in 1 rfl _).trans (A_eq3 (V7 m ρ) c 1))
theorem product3 : W8 m ρ c (no_index (Proc.devRef .tc main_v16)) =
    mm (M := 2048) (K := 2048) (N := 2048) (W7 m ρ c (Proc.devRef .tc main_v5)) (W7 m ρ c (Proc.devRef .tc main_v15)) :=
  (W8_arr m ρ c 2).trans (Region3.result (V7 m ρ) c)

/-! ## Launch 4: entered from boundary 8, left at boundary 9 -/

theorem other4 {b : Ref sig .tc} (hb : ∀ w, Pipeline.arrRef spec4 w ≠ b) :
    W9 m ρ c (no_index (Proc.devRef .tc b)) = W8 m ρ c (Proc.devRef .tc b) := W9_of_ne m ρ c b hb
theorem left4 : W9 m ρ c (no_index (Proc.devRef .tc main_v11)) = W8 m ρ c (Proc.devRef .tc main_v11) :=
  (W9_arr m ρ c 0).trans (((dat4 (V8 m ρ) c).arrAt_in 0 rfl _).trans (A_eq4 (V8 m ρ) c 0))
theorem right4 : W9 m ρ c (no_index (Proc.devRef .tc main_v16)) = W8 m ρ c (Proc.devRef .tc main_v16) :=
  (W9_arr m ρ c 1).trans (((dat4 (V8 m ρ) c).arrAt_in 1 rfl _).trans (A_eq4 (V8 m ρ) c 1))
theorem product4 : W9 m ρ c (no_index (Proc.devRef .tc main_v17)) =
    mm (M := 2048) (K := 2048) (N := 2048) (W8 m ρ c (Proc.devRef .tc main_v11)) (W8 m ρ c (Proc.devRef .tc main_v16)) :=
  (W9_arr m ρ c 2).trans (Region4.result (V8 m ρ) c)

/-! ## Launch 5: entered from boundary 10, left at boundary 11 -/

theorem other5 {b : Ref sig .tc} (hb : ∀ w, Pipeline.arrRef spec5 w ≠ b) :
    W11 m ρ c (no_index (Proc.devRef .tc b)) = W10 m ρ c (Proc.devRef .tc b) := W11_of_ne m ρ c b hb
theorem left5 : W11 m ρ c (no_index (Proc.devRef .tc main_v16)) = W10 m ρ c (Proc.devRef .tc main_v16) :=
  (W11_arr m ρ c 0).trans (((dat5 (V10 m ρ) c).arrAt_in 0 rfl _).trans (A_eq5 (V10 m ρ) c 0))
theorem right5 : W11 m ρ c (no_index (Proc.devRef .tc main_v18)) = W10 m ρ c (Proc.devRef .tc main_v18) :=
  (W11_arr m ρ c 1).trans (((dat5 (V10 m ρ) c).arrAt_in 1 rfl _).trans (A_eq5 (V10 m ρ) c 1))
theorem product5 : W11 m ρ c (no_index (Proc.devRef .tc main_v19)) =
    mm (M := 2048) (K := 2048) (N := 2048) (W10 m ρ c (Proc.devRef .tc main_v16)) (W10 m ρ c (Proc.devRef .tc main_v18)) :=
  (W11_arr m ρ c 2).trans (Region5.result (V10 m ρ) c)

/-! ## Launch 6: entered from boundary 11, left at boundary 12 -/

theorem other6 {b : Ref sig .tc} (hb : ∀ w, Pipeline.arrRef spec6 w ≠ b) :
    W12 m ρ c (no_index (Proc.devRef .tc b)) = W11 m ρ c (Proc.devRef .tc b) := W12_of_ne m ρ c b hb
theorem left6 : W12 m ρ c (no_index (Proc.devRef .tc main_v11)) = W11 m ρ c (Proc.devRef .tc main_v11) :=
  (W12_arr m ρ c 0).trans (((dat6 (V11 m ρ) c).arrAt_in 0 rfl _).trans (A_eq6 (V11 m ρ) c 0))
theorem right6 : W12 m ρ c (no_index (Proc.devRef .tc main_v19)) = W11 m ρ c (Proc.devRef .tc main_v19) :=
  (W12_arr m ρ c 1).trans (((dat6 (V11 m ρ) c).arrAt_in 1 rfl _).trans (A_eq6 (V11 m ρ) c 1))
theorem product6 : W12 m ρ c (no_index (Proc.devRef .tc main_v20)) =
    mm (M := 2048) (K := 2048) (N := 2048) (W11 m ρ c (Proc.devRef .tc main_v11)) (W11 m ρ c (Proc.devRef .tc main_v19)) :=
  (W12_arr m ρ c 2).trans (Region6.result (V11 m ρ) c)

/-! ## Launch 7: entered from boundary 13, left at boundary 14 -/

theorem other7 {b : Ref sig .tc} (hb : ∀ w, Pipeline.arrRef spec7 w ≠ b) :
    W14 m ρ c (no_index (Proc.devRef .tc b)) = W13 m ρ c (Proc.devRef .tc b) := W14_of_ne m ρ c b hb
theorem left7 : W14 m ρ c (no_index (Proc.devRef .tc main_v19)) = W13 m ρ c (Proc.devRef .tc main_v19) :=
  (W14_arr m ρ c 0).trans (((dat7 (V13 m ρ) c).arrAt_in 0 rfl _).trans (A_eq7 (V13 m ρ) c 0))
theorem right7 : W14 m ρ c (no_index (Proc.devRef .tc main_v21)) = W13 m ρ c (Proc.devRef .tc main_v21) :=
  (W14_arr m ρ c 1).trans (((dat7 (V13 m ρ) c).arrAt_in 1 rfl _).trans (A_eq7 (V13 m ρ) c 1))
theorem product7 : W14 m ρ c (no_index (Proc.devRef .tc main_v22)) =
    mm (M := 2048) (K := 2048) (N := 2048) (W13 m ρ c (Proc.devRef .tc main_v19)) (W13 m ρ c (Proc.devRef .tc main_v21)) :=
  (W14_arr m ρ c 2).trans (Region7.result (V13 m ρ) c)

/-! ## Launch 8: entered from boundary 14, left at boundary 15 -/

theorem other8 {b : Ref sig .tc} (hb : ∀ w, Pipeline.arrRef spec8 w ≠ b) :
    W15 m ρ c (no_index (Proc.devRef .tc b)) = W14 m ρ c (Proc.devRef .tc b) := W15_of_ne m ρ c b hb
theorem left8 : W15 m ρ c (no_index (Proc.devRef .tc main_v11)) = W14 m ρ c (Proc.devRef .tc main_v11) :=
  (W15_arr m ρ c 0).trans (((dat8 (V14 m ρ) c).arrAt_in 0 rfl _).trans (A_eq8 (V14 m ρ) c 0))
theorem right8 : W15 m ρ c (no_index (Proc.devRef .tc main_v22)) = W14 m ρ c (Proc.devRef .tc main_v22) :=
  (W15_arr m ρ c 1).trans (((dat8 (V14 m ρ) c).arrAt_in 1 rfl _).trans (A_eq8 (V14 m ρ) c 1))
theorem product8 : W15 m ρ c (no_index (Proc.devRef .tc main_v23)) =
    mm (M := 2048) (K := 2048) (N := 2048) (W14 m ρ c (Proc.devRef .tc main_v11)) (W14 m ρ c (Proc.devRef .tc main_v22)) :=
  (W15_arr m ρ c 2).trans (Region8.result (V14 m ρ) c)

/-! ## Launch 9: entered from boundary 16, left at boundary 17 -/

theorem other9 {b : Ref sig .tc} (hb : ∀ w, Pipeline.arrRef spec9 w ≠ b) :
    W17 m ρ c (no_index (Proc.devRef .tc b)) = W16 m ρ c (Proc.devRef .tc b) := W17_of_ne m ρ c b hb
theorem left9 : W17 m ρ c (no_index (Proc.devRef .tc main_v22)) = W16 m ρ c (Proc.devRef .tc main_v22) :=
  (W17_arr m ρ c 0).trans (((dat9 (V16 m ρ) c).arrAt_in 0 rfl _).trans (A_eq9 (V16 m ρ) c 0))
theorem right9 : W17 m ρ c (no_index (Proc.devRef .tc main_v24)) = W16 m ρ c (Proc.devRef .tc main_v24) :=
  (W17_arr m ρ c 1).trans (((dat9 (V16 m ρ) c).arrAt_in 1 rfl _).trans (A_eq9 (V16 m ρ) c 1))
theorem product9 : W17 m ρ c (no_index (Proc.devRef .tc main_v25)) =
    mm (M := 2048) (K := 2048) (N := 2048) (W16 m ρ c (Proc.devRef .tc main_v22)) (W16 m ρ c (Proc.devRef .tc main_v24)) :=
  (W17_arr m ρ c 2).trans (Region9.result (V16 m ρ) c)

/-! ## Launch 10: entered from boundary 18, left at boundary 19 -/

theorem other10 {b : Ref sig .tc} (hb : ∀ w, Pipeline.arrRef spec10 w ≠ b) :
    W19 m ρ c (no_index (Proc.devRef .tc b)) = W18 m ρ c (Proc.devRef .tc b) := W19_of_ne m ρ c b hb
theorem left10 : W19 m ρ c (no_index (Proc.devRef .tc main_v26)) = W18 m ρ c (Proc.devRef .tc main_v26) :=
  (W19_arr m ρ c 0).trans (((dat10 (V18 m ρ) c).arrAt_in 0 rfl _).trans (A_eq10 (V18 m ρ) c 0))
theorem right10 : W19 m ρ c (no_index (Proc.devRef .tc main_v25)) = W18 m ρ c (Proc.devRef .tc main_v25) :=
  (W19_arr m ρ c 1).trans (((dat10 (V18 m ρ) c).arrAt_in 1 rfl _).trans (A_eq10 (V18 m ρ) c 1))
theorem product10 : W19 m ρ c (no_index (Proc.devRef .tc main_v27)) =
    mm (M := 2048) (K := 2048) (N := 2048) (W18 m ρ c (Proc.devRef .tc main_v26)) (W18 m ρ c (Proc.devRef .tc main_v25)) :=
  (W19_arr m ρ c 2).trans (Region10.result (V18 m ρ) c)

/-! ## Launch 11: entered from boundary 20, left at boundary 21 -/

theorem other11 {b : Ref sig .tc} (hb : ∀ w, Pipeline.arrRef spec11 w ≠ b) :
    W21 m ρ c (no_index (Proc.devRef .tc b)) = W20 m ρ c (Proc.devRef .tc b) := W21_of_ne m ρ c b hb
theorem left11 : W21 m ρ c (no_index (Proc.devRef .tc main_v31)) = W20 m ρ c (Proc.devRef .tc main_v31) :=
  (W21_arr m ρ c 0).trans (((dat11 (V20 m ρ) c).arrAt_in 0 rfl _).trans (A_eq11 (V20 m ρ) c 0))
theorem right11 : W21 m ρ c (no_index (Proc.devRef .tc main_v29)) = W20 m ρ c (Proc.devRef .tc main_v29) :=
  (W21_arr m ρ c 1).trans (((dat11 (V20 m ρ) c).arrAt_in 1 rfl _).trans (A_eq11 (V20 m ρ) c 1))
theorem product11 : W21 m ρ c (no_index (Proc.devRef .tc main_v32)) =
    mm (M := 16384) (K := 2048) (N := 2048) (W20 m ρ c (Proc.devRef .tc main_v31)) (W20 m ρ c (Proc.devRef .tc main_v29)) :=
  (W21_arr m ρ c 2).trans (Region11.result (V20 m ρ) c)

end Cert.KernelIdeal.FoldSteps

end
-- ==== Proof.FlatProduct.lean ====
/-
  A linear layer applied to a batch of sequences through a flattened matrix product. The [8, 2048, 2048] input is
  re-laid as [16384, 2048] (row b·2048 + s is position s of sequence b: the same row-major order), multiplied by the
  transpose of a [2048, 2048] weight, and the [16384, 2048] product re-laid as [8, 2048, 2048]. Entry (b, s, o) of
  the result is the sum over k of input (b, s, k) times weight (o, k): the contraction of the input's last axis
  with the weight's last axis.
-/
import proofs.«137536_j69630009803034_1_alg».proof.Proof.LibMatProduct

noncomputable section

open scoped BigOperators

namespace Cert.FlatProduct

open Idealize.ShloMosaic Idealize.ShloMosaic.ValueIdx Idealize.ShloMosaic.PlainDot Cert.MatProduct

abbrev Cube : Shape := ⟨3, ![8, 2048, 2048]⟩
abbrev Flat : Shape := ⟨2, ![16384, 2048]⟩
abbrev Square : Shape := ⟨2, ![2048, 2048]⟩

/-- The row of the flattened input that holds position `s` of sequence `b`. -/
def row (b : Fin 8) (s : Fin 2048) : Fin 16384 := ⟨b.val * 2048 + s.val, by have := b.isLt; have := s.isLt; omega⟩

/-- The flattened input at (row b s, k) is the input at (b, s, k). -/
theorem flatten_apply (x : Cube.Idx → EReal) (h : Cube.ShapeCasts Flat) (b : Fin 8) (s k : Fin 2048) :
    shapeCast Flat x h (ix2 (row b s) k) = x (ix3 b s k) :=
  shapeCast_apply x h (ix2 (row b s) k) (ix3 b s k) (by
    rw [Shape.rowMajor_val_two, Shape.rowMajor_val_three]
    show (b.val * 2048 + s.val) * 2048 + k.val = (b.val * 2048 + s.val) * 2048 + k.val
    rfl)

/-- A [16384, 2048] array re-laid as [8, 2048, 2048], at (b, s, o), is the array at (row b s, o). -/
theorem unflatten_apply (y : Flat.Idx → EReal) (h : Flat.ShapeCasts Cube) (b : Fin 8) (s o : Fin 2048) :
    shapeCast Cube y h (ix3 b s o) = y (ix2 (row b s) o) :=
  shapeCast_apply y h (ix3 b s o) (ix2 (row b s) o) (by
    rw [Shape.rowMajor_val_two, Shape.rowMajor_val_three]
    show (b.val * 2048 + s.val) * 2048 + o.val = (b.val * 2048 + s.val) * 2048 + o.val
    rfl)

/-- The flattened product with the transposed weight, re-laid, at (b, s, o). -/
theorem flat_product_apply (x : Cube.Idx → EReal) (w : Square.Idx → EReal) (h1 : Cube.ShapeCasts Flat)
    (h2 : Square.Transposes [1, 0] Square) (h3 : Flat.ShapeCasts Cube) (b : Fin 8) (s o : Fin 2048) :
    shapeCast Cube (mm (shapeCast Flat x h1) (transpose Square [1, 0] w h2)) h3 (ix3 b s o)
      = ∑ k : Fin 2048, x (ix3 b s k) * w (ix2 o k) := by
  rw [unflatten_apply, mm_apply]
  refine Finset.sum_congr rfl fun k _ => ?_
  rw [flatten_apply, transpose_apply2]

end Cert.FlatProduct

end
-- ==== Proof.Fold.lean ====
/-
  The kernel's program from launch to return, read as values. @main is twelve launches among stretches of host
  operations; the buffer contents at each boundary between them are a fold from the launch memory. Walking that fold
  backwards from a buffer at a boundary — a host operation's result is its function of its operands' contents, a
  buffer an operation or a launch does not write is as it was before, a launch's result array is the product of
  its operand arrays — expresses every launch's result by the arguments. Each launch's result is the same value the
  reference computes at the corresponding step: the skew-symmetric matrix A = U Vᵀ − V Uᵀ from two rank-64 products,
  B = I − A, four Newton–Schulz steps X ← X (2 I − B X) from X = I (two products each), the Cayley product
  (I + A) X, and the linear layer, input times the transpose of that weight. The host operations between the launches
  (identity matrix, differences, the constant 2 I) are the reference's own, and a product on the matrix unit into a
  zero accumulator and the host's dot product are one function on the extended reals.
-/
import proofs.«137536_j69630009803034_1_alg».proof.Proof.FoldSteps
import proofs.«137536_j69630009803034_1_alg».proof.Proof.FlatProduct
import proofs.«137536_j69630009803034_1_alg».proof.Proof.Gen.ReferenceIdeal.Read
import Idealize.ShloMosaic.Lib.StableHlo.Run

set_option maxRecDepth 16384

noncomputable section

namespace Cert.KernelIdeal.Fold

open Idealize.ShloMosaic Idealize.ShloMosaic.TcCoe Idealize.ShloMosaic.ValueIdx Idealize.ShloMosaic.PlainDot Idealize.SL.Sem
open Idealize.ShloMosaic.StableHlo
open Cert.KernelIdeal Cert.KernelIdeal.Gen Cert.MatProduct Cert.KernelIdeal.FoldSteps
open Cert.ReferenceIdeal.Read

variable (m : (ℓ : Loc nD τ sig) → Buf (Elt Ideal) ℓ) (ρ : Dev nD → PrngReg) (c : Dev nD)

/-- The three arguments as launched. -/
abbrev x0 : Vec Ideal S8x2048x2048 .f32 := m ((c : Thread nD τ).loc main_arg0)
abbrev x1 : Vec Ideal S2048x64 .f32 := m ((c : Thread nD τ).loc main_arg1)
abbrev x2 : Vec Ideal S2048x64 .f32 := m ((c : Thread nD τ).loc main_arg2)

theorem launched0 : W0 m ρ c (no_index (Proc.devRef .tc main_arg0)) = x0 m c := rfl
theorem launched1 : W0 m ρ c (no_index (Proc.devRef .tc main_arg1)) = x1 m c := rfl
theorem launched2 : W0 m ρ c (no_index (Proc.devRef .tc main_arg2)) = x2 m c := rfl

/-- The reference's two kinds of matrix product are plain: rows against columns, no batch axis. -/
theorem plainSmall : IsPlain Cert.ReferenceIdeal.dot_S2048x64_S64x2048_S2048x2048_1_0_0_1_n_n := ⟨rfl, rfl, rfl, rfl, rfl, rfl⟩
theorem plainBig : IsPlain Cert.ReferenceIdeal.dot_S2048x2048_S2048x2048_S2048x2048_1_0_0_1_n_n := ⟨rfl, rfl, rfl, rfl, rfl, rfl⟩

/-- The host's dot product of two matrices is the product. -/
theorem hostDot_eq_mm {M K N : Nat} {D : DotDims ⟨2, ![M, K]⟩ ⟨2, ![K, N]⟩ ⟨2, ![M, N]⟩} (h : IsPlain D)
    (l : FVec Ideal ⟨2, ![M, K]⟩ .f32) (r : FVec Ideal ⟨2, ![K, N]⟩ .f32) :
    Host.dotGeneral D none l r = mm l r := dotGeneral_eq_mm h none .single l r

/-- Walk the fold backwards from the buffers in the goal: unfold the host stretches, read each operation's result or
    pass it by, pass each launch by at the buffers it does not write, and stop at a launch's result array. -/
syntax "walk" ("[" Lean.Parser.Tactic.simpLemma,* "]")? : tactic
macro_rules
  | `(tactic| walk) => `(tactic| simp (disch := decide) only [W1, W3, W5, W7, W10, W13, W16, W18, W20, W22,
      hostOps0, hostOps1, hostOps2, hostOps3, hostOps5, hostOps7, hostOps9, hostOps10, hostOps11, hostOps12,
      after_cons, after_nil, nullary_result', unary_result', binary_result', reshape_result',
      nullary_result_ne', unary_result_ne', binary_result_ne', reshape_result_ne',
      other0, other1, other2, other3, other4, other5, other6, other7, other8, other9, other10, other11,
      left0, left1, left2, left3, left4, left5, left6, left7, left8, left9, left10, left11,
      right0, right1, right2, right3, right4, right5, right6, right7, right8, right9, right10, right11,
      launched0, launched1, launched2])
  | `(tactic| walk [$ls,*]) => `(tactic| simp (disch := decide) only [W1, W3, W5, W7, W10, W13, W16, W18, W20, W22,
      hostOps0, hostOps1, hostOps2, hostOps3, hostOps5, hostOps7, hostOps9, hostOps10, hostOps11, hostOps12,
      after_cons, after_nil, nullary_result', unary_result', binary_result', reshape_result',
      nullary_result_ne', unary_result_ne', binary_result_ne', reshape_result_ne',
      other0, other1, other2, other3, other4, other5, other6, other7, other8, other9, other10, other11,
      left0, left1, left2, left3, left4, left5, left6, left7, left8, left9, left10, left11,
      right0, right1, right2, right3, right4, right5, right6, right7, right8, right9, right10, right11,
      launched0, launched1, launched2, $ls,*])

/-- Launch 0's result is the reference's value at the corresponding step. -/
theorem out0 : W2 m ρ c (no_index (Proc.devRef .tc main_v7)) = val_main_v1 (x1 m c) (x2 m c) := by
  rw [product0]
  walk
  exact (hostDot_eq_mm plainSmall _ _).symm

/-- Launch 1's result is the reference's value at the corresponding step. -/
theorem out1 : W4 m ρ c (no_index (Proc.devRef .tc main_v9)) = val_main_v3 (x1 m c) (x2 m c) := by
  rw [product1]
  walk [out0]
  exact (hostDot_eq_mm plainSmall _ _).symm

/-- Launch 2's result is the reference's value at the corresponding step. -/
theorem out2 : W6 m ρ c (no_index (Proc.devRef .tc main_v14)) = val_main_v14 (x1 m c) (x2 m c) := by
  rw [product2]
  walk [out0, out1]
  exact (hostDot_eq_mm plainBig _ _).symm

/-- Launch 3's result is the reference's value at the corresponding step. -/
theorem out3 : W8 m ρ c (no_index (Proc.devRef .tc main_v16)) = val_main_v16 (x1 m c) (x2 m c) := by
  rw [product3]
  walk [out0, out1, out2]
  exact (hostDot_eq_mm plainBig _ _).symm

/-- Launch 4's result is the reference's value at the corresponding step. -/
theorem out4 : W9 m ρ c (no_index (Proc.devRef .tc main_v17)) = val_main_v19 (x1 m c) (x2 m c) := by
  rw [product4]
  walk [out0, out1, out2, out3]
  exact (hostDot_eq_mm plainBig _ _).symm

/-- Launch 5's result is the reference's value at the corresponding step. -/
theorem out5 : W11 m ρ c (no_index (Proc.devRef .tc main_v19)) = val_main_v21 (x1 m c) (x2 m c) := by
  rw [product5]
  walk [out0, out1, out2, out3, out4]
  exact (hostDot_eq_mm plainBig _ _).symm

/-- Launch 6's result is the reference's value at the corresponding step. -/
theorem out6 : W12 m ρ c (no_index (Proc.devRef .tc main_v20)) = val_main_v24 (x1 m c) (x2 m c) := by
  rw [product6]
  walk [out0, out1, out2, out3, out4, out5]
  exact (hostDot_eq_mm plainBig _ _).symm

/-- Launch 7's result is the reference's value at the corresponding step. -/
theorem out7 : W14 m ρ c (no_index (Proc.devRef .tc main_v22)) = val_main_v26 (x1 m c) (x2 m c) := by
  rw [product7]
  walk [out0, out1, out2, out3, out4, out5, out6]
  exact (hostDot_eq_mm plainBig _ _).symm

/-- Launch 8's result is the reference's value at the corresponding step. -/
theorem out8 : W15 m ρ c (no_index (Proc.devRef .tc main_v23)) = val_main_v29 (x1 m c) (x2 m c) := by
  rw [product8]
  walk [out0, out1, out2, out3, out4, out5, out6, out7]
  exact (hostDot_eq_mm plainBig _ _).symm

/-- Launch 9's result is the reference's value at the corresponding step. -/
theorem out9 : W17 m ρ c (no_index (Proc.devRef .tc main_v25)) = val_main_v31 (x1 m c) (x2 m c) := by
  rw [product9]
  walk [out0, out1, out2, out3, out4, out5, out6, out7, out8]
  exact (hostDot_eq_mm plainBig _ _).symm

/-- Launch 10's result is the reference's value at the corresponding step. -/
theorem out10 : W19 m ρ c (no_index (Proc.devRef .tc main_v27)) = val_main_v33 (x1 m c) (x2 m c) := by
  rw [product10]
  walk [out0, out1, out2, out3, out4, out5, out6, out7, out8, out9]
  exact (hostDot_eq_mm plainBig _ _).symm

/-- The linear layer's result from the input and the weight: the flattened product with the transposed weight. -/
def finish (x : Vec Ideal S8x2048x2048 .f32) (w : Vec Ideal S2048x2048 .f32) : Vec Ideal S8x2048x2048 .f32 :=
  shapeCast S8x2048x2048 (mm (M := 16384) (K := 2048) (N := 2048)
    (shapeCast S16384x2048 x shapeCasts_S8x2048x2048_S16384x2048)
    (transpose S2048x2048 [1, 0] w transposes_S2048x2048_S2048x2048_1_0)) shapeCasts_S16384x2048_S8x2048x2048

/-- The result buffer at the last boundary: the linear layer of the input with the reference's weight. -/
theorem result_eq : W22 m ρ c (Proc.devRef .tc main_v33) = finish (x0 m c) (val_main_v33 (x1 m c) (x2 m c)) := by
  walk [product11, out10]
  rfl

end Cert.KernelIdeal.Fold

end
-- ==== Proof.Bridge.lean ====
/-
  The last step on both sides. The reference contracts the input's last axis with the weight's last axis in one
  dot product: entry (b, s, o) is the sum over k of input (b, s, k) times weight (o, k). The kernel flattens the
  input to rows, multiplies by the transposed weight and re-lays the rows as sequences: the same sum at every
  entry. So with the same weight the two results are one array.
-/
import proofs.«137536_j69630009803034_1_alg».proof.Proof.Fold

noncomputable section

open scoped BigOperators

namespace Cert.Bridge

open Idealize.ShloMosaic Idealize.ShloMosaic.ValueIdx Idealize.SL.Sem
open Cert.ReferenceIdeal.Read Cert.FlatProduct Cert.MatProduct

/-- The kernel's linear layer over the reference's weight is the reference's linear layer. -/
theorem finish_eq_reference (x : Cube.Idx → EReal) (x1 x2 : (⟨2, ![2048, 64]⟩ : Shape).Idx → EReal) :
    Cert.KernelIdeal.Fold.finish x (val_main_v33 (F := Ideal) x1 x2) = val_main_v34 (F := Ideal) x x1 x2 := by
  funext i
  obtain ⟨b, s, o, rfl⟩ : ∃ (b : Fin 8) (s o : Fin 2048), i = ix3 b s o := ⟨i 0, i 1, i 2, eq_ix3 i⟩
  unfold Cert.KernelIdeal.Fold.finish
  rw [val_main_v34_apply]
  refine (flat_product_apply x _ _ _ _ b s o).trans (Finset.sum_congr rfl fun k _ => ?_)
  have hl : lidx_main_v34 (ix3 b s o) k = ix3 b s k := funext fun a => by
    match a with
    | ⟨0, _⟩ => rfl
    | ⟨1, _⟩ => rfl
    | ⟨2, _⟩ => rfl
  have hr : ridx_main_v34 (ix3 b s o) k = ix2 o k := funext fun a => by
    match a with
    | ⟨0, _⟩ => rfl
    | ⟨1, _⟩ => rfl
  rw [hl, hr]

end Cert.Bridge

end
-- ==== Proof.lean ====
/-
  The certificate of a low-rank Cayley orthogonalisation followed by a linear layer. Both programs form the
  skew-symmetric A = U Vᵀ − V Uᵀ, refine X towards (I − A)⁻¹ by four Newton–Schulz steps X ← X (2 I − (I − A) X)
  from X = I, take the weight W = (I + A) X and return input · Wᵀ. The kernel computes each of the eleven
  [2048, 2048] products, and the final [16384, 2048] × [2048, 2048] one, in its own launch, tile by tile with the
  whole shared axis inside each tile; the reference computes them as host dot products. On the extended reals a
  tiled product with full-length sums and a dot product are the same finite sums, a change of float format is
  the identity, and the host operations between the products are the same on both sides; so the two results are
  equal entry by entry, with no use of the inputs' finiteness. The frames are the generated ones; the reference's
  is its generated run with the result dropped. No operation of the kernel was rewritten by the idealisation, so
  that conjunct is trivial.
-/
import proofs.«137536_j69630009803034_1_alg».proof.Defs
import proofs.«137536_j69630009803034_1_alg».proof.Proof.Gen.Kernel
import proofs.«137536_j69630009803034_1_alg».proof.Proof.Gen.Kernel.Skeleton
import proofs.«137536_j69630009803034_1_alg».proof.Proof.Gen.Kernel.Launch
import proofs.«137536_j69630009803034_1_alg».proof.Proof.Gen.Kernel.Points
import proofs.«137536_j69630009803034_1_alg».proof.Proof.Gen.Kernel.Frame
import proofs.«137536_j69630009803034_1_alg».proof.Proof.Gen.KernelIdeal
import proofs.«137536_j69630009803034_1_alg».proof.Proof.Gen.KernelIdeal.Skeleton
import proofs.«137536_j69630009803034_1_alg».proof.Proof.Gen.KernelIdeal.Launch
import proofs.«137536_j69630009803034_1_alg».proof.Proof.Gen.KernelIdeal.Points
import proofs.«137536_j69630009803034_1_alg».proof.Proof.Gen.KernelIdeal.Frame
import proofs.«137536_j69630009803034_1_alg».proof.Proof.Gen.ReferenceIdeal
import proofs.«137536_j69630009803034_1_alg».proof.Proof.Gen.ReferenceIdeal.Run
import proofs.«137536_j69630009803034_1_alg».proof.Proof.Gen.ReferenceIdeal.Read
import proofs.«137536_j69630009803034_1_alg».proof.Proof.Gen.Pre_finite_inputs
import proofs.«137536_j69630009803034_1_alg».proof.Proof.RunResult
import proofs.«137536_j69630009803034_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs, run from memories that agree on the arguments, end with the linear layer of the input with the
    Cayley weight: the kernel by its run with the result named and the walk through its boundaries, the reference by
    its generated run, the two last steps joined entry by entry. -/
theorem algebraic : Cert.algebraic_KernelIdeal_ReferenceIdeal := by
  intro m ρ m' ρ' _ hagree
  refine ⟨fun c => Cert.KernelIdeal.Fold.finish (Cert.KernelIdeal.Fold.x0 m c)
    (Cert.ReferenceIdeal.Read.val_main_v33 (Cert.KernelIdeal.Fold.x1 m c) (Cert.KernelIdeal.Fold.x2 m c)), ?_, ?_⟩
  · exact (θ_run Cert.KernelIdeal.defs _ _).mono
      (fun r h c => ⟨(h c).1.trans (Cert.KernelIdeal.Fold.result_eq m ρ c), (h c).2⟩)
      (Cert.KernelIdeal.RunResult.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v34_eq, (hagree c).1, (hagree c).2.1, (hagree c).2.2]
    exact (Cert.Bridge.finish_eq_reference _ _ _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
